-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4320 : Shape := ⟨2, ![16384, 4320]⟩
abbrev S16384 : Shape := ⟨1, ![16384]⟩
abbrev S16384x1 : Shape := ⟨2, ![16384, 1]⟩
abbrev S_ : Shape := ⟨0, ![]⟩
abbrev S16384x360 : Shape := ⟨2, ![16384, 360]⟩
abbrev S16384x360x1 : Shape := ⟨3, ![16384, 360, 1]⟩

class Facts : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x360_0_1 : S16384x1.BroadcastsInDim S16384x360 (![0, 1] : Fin 2 → Fin S16384x360.rank)
  bcast_S16384x360_S16384x360x1_0_1 : S16384x360.BroadcastsInDim S16384x360x1 (![0, 1] : Fin 2 → Fin S16384x360x1.rank)
  bcast_S_S16384x4320 : S_.BroadcastsInDim S16384x4320 (![] : Fin 0 → Fin S16384x4320.rank)
  reducesTo_S16384x4320_S_d0_1 : S16384x4320.ReducesTo [0, 1] S_
  h_S_ : 0 < S_.numel
  bcast_S_S16384 : S_.BroadcastsInDim S16384 (![] : Fin 0 → Fin S16384.rank)
  reducesTo_S16384_S_d0 : S16384.ReducesTo [0] S_
  reducesTo_S16384x360_S16384_d1 : S16384x360.ReducesTo [1] S16384
  gather_S16384x4320_S16384x360x1_S16384x360_n_1_0_0_1_2_11_wf : GatherDims.WF S16384x4320 S16384x360x1 S16384x360 [] [1] [0] [1] [0] 2 ![1, 1]

variable [Facts]

def gather_S16384x4320_S16384x360x1_S16384x360_n_1_0_0_1_2_11 : GatherDims S16384x4320 S16384x360x1 S16384x360 where
  offsetDims := []
  collapsedSliceDims := [1]
  operandBatchingDims := [0]
  startIndicesBatchingDims := [0]
  startIndexMap := [1]
  indexVectorDim := 2
  sliceSizes := ![1, 1]
  wf := gather_S16384x4320_S16384x360x1_S16384x360_n_1_0_0_1_2_11_wf
def fn_part1 {F : FTy → Type} [FloatOps F] (main_arg2 : IVec S16384 32) (main_v7 : FVec F S16384x360 .f32) (main_v16 : IVec S_ 1) (main_v17 : IVec S16384 32) : IVec S_ 1 :=
  let main_v18 : IVec S16384 1 := cmpi .sge main_arg2 main_v17
  let main_c_4 : IVec S_ 1 := constantI S_ 1 1#1
  let main_v19 : IVec S_ 1 := (fun x v => Host.reduce IntOp.andi x v reducesTo_S16384_S_d0 h_S_) main_v18 main_c_4
  let main_v20 : IVec S_ 1 := andi main_v16 main_v19
  let main_c_5 : IVec S_ 32 := constantI S_ 32 12#32
  let main_v21 : IVec S16384 32 := broadcastInDim S16384 ![] bcast_S_S16384 main_c_5
  let main_v22 : IVec S16384 1 := cmpi .slt main_arg2 main_v21
  let main_c_6 : IVec S_ 1 := constantI S_ 1 1#1
  let main_v23 : IVec S_ 1 := (fun x v => Host.reduce IntOp.andi x v reducesTo_S16384_S_d0 h_S_) main_v22 main_c_6
  let main_v24 : IVec S_ 1 := andi main_v20 main_v23
  let main_v25 : FVec F S16384x360 .f32 := Host.absf main_v7
  let main_cst_7 : FVec F S_ .f32 := constant S_ .f32 0x00000000#32
  let main_v26 : FVec F S16384 .f32 := (fun x v => Host.reduceAdd x v reducesTo_S16384x360_S16384_d1 h_S_) main_v25 main_cst_7
  let main_cst_8 : FVec F S_ .f32 := constant S_ .f32 0x00000000#32
  let main_v27 : FVec F S16384 .f32 := broadcastInDim S16384 ![] bcast_S_S16384 main_cst_8
  let main_v28 : IVec S16384 1 := cmpf .ogt main_v26 main_v27
  let main_c_9 : IVec S_ 1 := constantI S_ 1 1#1
  let main_v29 : IVec S_ 1 := (fun x v => Host.reduce IntOp.andi x v reducesTo_S16384_S_d0 h_S_) main_v28 main_c_9
  let main_v30 : IVec S_ 1 := andi main_v24 main_v29
  main_v30

def fn {F : FTy → Type} [FloatOps F] (main_arg0 : FVec F S16384x4320 .f32) (main_arg1 : FVec F S16384x4320 .f32) (main_arg2 : IVec S16384 32) : IVec S_ 1 :=
  let main_v0 : IVec S16384x1 32 := broadcastInDim S16384x1 ![0] bcast_S16384_S16384x1_0 main_arg2
  let main_c : IVec S_ 32 := constantI S_ 32 360#32
  let main_v1 : IVec S16384x1 32 := broadcastInDim S16384x1 ![] bcast_S_S16384x1 main_c
  let main_v2 : IVec S16384x1 32 := muli main_v0 main_v1
  let main_v3 : IVec S16384x360 32 := iotaInDim S16384x360 32 1
  let main_v4 : IVec S16384x360 32 := broadcastInDim S16384x360 ![0, 1] bcast_S16384x1_S16384x360_0_1 main_v2
  let main_v5 : IVec S16384x360 32 := addi main_v4 main_v3
  let main_v6 : IVec S16384x360x1 32 := broadcastInDim S16384x360x1 ![0, 1] bcast_S16384x360_S16384x360x1_0_1 main_v5
  let main_v7 : FVec F S16384x360 .f32 := (fun x i => Host.gather gather_S16384x4320_S16384x360x1_S16384x360_n_1_0_0_1_2_11 x i) main_arg0 main_v6
  let main_v8 : FVec F S16384x4320 .f32 := Host.absf main_arg0
  let main_cst : FVec F S_ .f32 := constant S_ .f32 0x7F800000#32
  let main_v9 : FVec F S16384x4320 .f32 := broadcastInDim S16384x4320 ![] bcast_S_S16384x4320 main_cst
  let main_v10 : IVec S16384x4320 1 := cmpf .olt main_v8 main_v9
  let main_c_0 : IVec S_ 1 := constantI S_ 1 1#1
  let main_v11 : IVec S_ 1 := (fun x v => Host.reduce IntOp.andi x v reducesTo_S16384x4320_S_d0_1 h_S_) main_v10 main_c_0
  let main_v12 : FVec F S16384x4320 .f32 := Host.absf main_arg1
  let main_cst_1 : FVec F S_ .f32 := constant S_ .f32 0x7F800000#32
  let main_v13 : FVec F S16384x4320 .f32 := broadcastInDim S16384x4320 ![] bcast_S_S16384x4320 main_cst_1
  let main_v14 : IVec S16384x4320 1 := cmpf .olt main_v12 main_v13
  let main_c_2 : IVec S_ 1 := constantI S_ 1 1#1
  let main_v15 : IVec S_ 1 := (fun x v => Host.reduce IntOp.andi x v reducesTo_S16384x4320_S_d0_1 h_S_) main_v14 main_c_2
  let main_v16 : IVec S_ 1 := andi main_v11 main_v15
  let main_c_3 : IVec S_ 32 := constantI S_ 32 0#32
  let main_v17 : IVec S16384 32 := broadcastInDim S16384 ![] bcast_S_S16384 main_c_3
  fn_part1 (F := F) main_arg2 main_v7 main_v16 main_v17
-- ==== Kernel.lean ====
abbrev S16384x4320 : Shape := ⟨2, ![16384, 4320]⟩
abbrev S16384 : Shape := ⟨1, ![16384]⟩
abbrev S_ : Shape := ⟨0, ![]⟩
abbrev S16384x1 : Shape := ⟨2, ![16384, 1]⟩
abbrev S16384x12x360 : Shape := ⟨3, ![16384, 12, 360]⟩
abbrev S512x128 : Shape := ⟨2, ![512, 128]⟩
abbrev S256x1 : Shape := ⟨2, ![256, 1]⟩
abbrev S256x12x360 : Shape := ⟨3, ![256, 12, 360]⟩
abbrev S8x128 : Shape := ⟨2, ![8, 128]⟩
abbrev S256x12 : Shape := ⟨2, ![256, 12]⟩
abbrev S256x12x1 : Shape := ⟨3, ![256, 12, 1]⟩
abbrev S256x360 : Shape := ⟨2, ![256, 360]⟩
abbrev S256 : Shape := ⟨1, ![256]⟩
abbrev S1 : Shape := ⟨1, ![1]⟩
abbrev S1x1 : Shape := ⟨2, ![1, 1]⟩

abbrev nBuf : Space → Nat
  | .hbm => 18
  | .vmem => 8
  | .smem => 0
  | _ => 0

abbrev bufTy : (tb : Table) → Fin (tcTables nBuf tb) → BufTy
  | .hbm, ⟨0, _⟩ => ⟨S16384x4320, .f32⟩
  | .hbm, ⟨1, _⟩ => ⟨S16384x4320, .f32⟩
  | .hbm, ⟨2, _⟩ => ⟨S16384, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x12x360, .f32⟩
  | .hbm, ⟨13, _⟩ => ⟨S16384x12x360, .f32⟩
  | .hbm, ⟨14, _⟩ => ⟨S512x128, .f32⟩
  | .hbm, ⟨15, _⟩ => ⟨S_, .f32⟩
  | .hbm, ⟨16, _⟩ => ⟨S_, .f32⟩
  | .hbm, ⟨17, _⟩ => ⟨S1, .f32⟩
  | .local _ .vmem, ⟨0, _⟩ => ⟨S256x1, .i32⟩
  | .local _ .vmem, ⟨1, _⟩ => ⟨S256x1, .i32⟩
  | .local _ .vmem, ⟨2, _⟩ => ⟨S256x12x360, .f32⟩
  | .local _ .vmem, ⟨3, _⟩ => ⟨S256x12x360, .f32⟩
  | .local _ .vmem, ⟨4, _⟩ => ⟨S256x12x360, .f32⟩
  | .local _ .vmem, ⟨5, _⟩ => ⟨S256x12x360, .f32⟩
  | .local _ .vmem, ⟨6, _⟩ => ⟨S8x128, .f32⟩
  | .local _ .vmem, ⟨7, _⟩ => ⟨S8x128, .f32⟩
  | _, _ => ⟨S16384x4320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x12x360 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x12x360 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  shapeCasts_S16384_S16384x1 : S16384.ShapeCasts S16384x1
  shapeCasts_S16384x4320_S16384x12x360 : S16384x4320.ShapeCasts S16384x12x360
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x12_d1_w32 : S256x12.Iotas .tc 32 [1]
  broadcasts_S256x1_S256x12 : S256x1.Broadcasts S256x12
  natLt_1_32 : 1 < 32
  shapeCasts_S256x12_S256x12x1 : S256x12.ShapeCasts S256x12x1
  inb_S256x12x360_S256x12x360_0_0_0 : ∀ a, (![0, 0, 0] : Fin 3 → Nat) a + S256x12x360.size a ≤ S256x12x360.size a
  h_S256x12x360 : 0 < S256x12x360.numel
  shapeCasts_S256x12x360_S256x12x360 : S256x12x360.ShapeCasts S256x12x360
  broadcasts_S256x12x1_S256x12x360 : S256x12x1.Broadcasts S256x12x360
  reduces_S256x12x360_S256x360 : S256x12x360.Reduces [1] S256x360
  reduces_S256x360_S256 : S256x360.Reduces [1] S256
  shapeCasts_S256_S256x1 : S256.ShapeCasts S256x1
  broadcasts_S256x1_S256x360 : S256x1.Broadcasts S256x360
  reduces_S256x1_S1 : S256x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S512x128_S_d0_1 : S512x128.ReducesTo [0, 1] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S16384x1.size a
  hwx0_0 : ∀ i : grid0.Coords, EltTy.bits .i32 = 32 ∨ (Rect.block (s := S16384x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x12x360.size a ≤ S16384x12x360.size a
  hwx0_1 : ∀ i : grid0.Coords, EltTy.bits .f32 = 32 ∨ (Rect.block (s := S16384x12x360) S256x12x360.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x12x360.size a ≤ S16384x12x360.size a
  hwx0_2 : ∀ i : grid0.Coords, EltTy.bits .f32 = 32 ∨ (Rect.block (s := S16384x12x360) S256x12x360.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S512x128.size a
  hwx0_3 : ∀ i : grid0.Coords, EltTy.bits .f32 = 32 ∨ (Rect.block (s := S512x128) S8x128.size (cc0_transform_3 i) (hinb0_3 i)).WholeWords (EltTy.packing .f32)

variable [Facts₀]

abbrev win0_0 : Pipeline.Window sig grid0 :=
  Pipeline.Window.ofSpec (Memref.whole main_v1) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x12x360.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x12x360.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4320 : Shape := ⟨2, ![16384, 4320]⟩
abbrev S16384 : Shape := ⟨1, ![16384]⟩
abbrev S16384x1 : Shape := ⟨2, ![16384, 1]⟩
abbrev S_ : Shape := ⟨0, ![]⟩
abbrev S360 : Shape := ⟨1, ![360]⟩
abbrev S1x360 : Shape := ⟨2, ![1, 360]⟩
abbrev S16384x360 : Shape := ⟨2, ![16384, 360]⟩
abbrev S16384x360x1 : Shape := ⟨3, ![16384, 360, 1]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x4320, .f32⟩
  | .hbm, ⟨1, _⟩ => ⟨S16384x4320, .f32⟩
  | .hbm, ⟨2, _⟩ => ⟨S16384, .i32⟩
  | .hbm, ⟨3, _⟩ => ⟨S16384x1, .i32⟩
  | .hbm, ⟨4, _⟩ => ⟨S_, .i32⟩
  | .hbm, ⟨5, _⟩ => ⟨S16384x1, .i32⟩
  | .hbm, ⟨6, _⟩ => ⟨S16384x1, .i32⟩
  | .hbm, ⟨7, _⟩ => ⟨S360, .i32⟩
  | .hbm, ⟨8, _⟩ => ⟨S1x360, .i32⟩
  | .hbm, ⟨9, _⟩ => ⟨S16384x360, .i32⟩
  | .hbm, ⟨10, _⟩ => ⟨S16384x360, .i32⟩
  | .hbm, ⟨11, _⟩ => ⟨S16384x360, .i32⟩
  | .hbm, ⟨12, _⟩ => ⟨S_, .i32⟩
  | .hbm, ⟨13, _⟩ => ⟨S16384x360, .i32⟩
  | .hbm, ⟨14, _⟩ => ⟨S16384x360, .i1⟩
  | .hbm, ⟨15, _⟩ => ⟨S_, .i32⟩
  | .hbm, ⟨16, _⟩ => ⟨S16384x360, .i32⟩
  | .hbm, ⟨17, _⟩ => ⟨S16384x360, .i32⟩
  | .hbm, ⟨18, _⟩ => ⟨S16384x360, .i32⟩
  | .hbm, ⟨19, _⟩ => ⟨S16384x360x1, .i32⟩
  | .hbm, ⟨20, _⟩ => ⟨S1, .i32⟩
  | .hbm, ⟨21, _⟩ => ⟨S_, .i32⟩
  | .hbm, ⟨22, _⟩ => ⟨S16384x360x1, .i32⟩
  | .hbm, ⟨23, _⟩ => ⟨S16384x360x1, .i1⟩
  | .hbm, ⟨24, _⟩ => ⟨S1x1x1, .i32⟩
  | .hbm, ⟨25, _⟩ => ⟨S16384x360x1, .i32⟩
  | .hbm, ⟨26, _⟩ => ⟨S16384x360x1, .i1⟩
  | .hbm, ⟨27, _⟩ => ⟨S16384x360x1, .i1⟩
  | .hbm, ⟨28, _⟩ => ⟨S_, .i1⟩
  | .hbm, ⟨29, _⟩ => ⟨S16384x360, .i1⟩
  | .hbm, ⟨30, _⟩ => ⟨S16384x360, .f32⟩
  | .hbm, ⟨31, _⟩ => ⟨S_, .f32⟩
  | .hbm, ⟨32, _⟩ => ⟨S16384x360, .f32⟩
  | .hbm, ⟨33, _⟩ => ⟨S16384x360, .f32⟩
  | .hbm, ⟨34, _⟩ => ⟨S_, .i32⟩
  | .hbm, ⟨35, _⟩ => ⟨S16384x360, .i32⟩
  | .hbm, ⟨36, _⟩ => ⟨S16384x360, .i1⟩
  | .hbm, ⟨37, _⟩ => ⟨S_, .i32⟩
  | .hbm, ⟨38, _⟩ => ⟨S16384x360, .i32⟩
  | .hbm, ⟨39, _⟩ => ⟨S16384x360, .i32⟩
  | .hbm, ⟨40, _⟩ => ⟨S16384x360, .i32⟩
  | .hbm, ⟨41, _⟩ => ⟨S16384x360x1, .i32⟩
  | .hbm, ⟨42, _⟩ => ⟨S1, .i32⟩
  | .hbm, ⟨43, _⟩ => ⟨S_, .i32⟩
  | .hbm, ⟨44, _⟩ => ⟨S16384x360x1, .i32⟩
  | .hbm, ⟨45, _⟩ => ⟨S16384x360x1, .i1⟩
  | .hbm, ⟨46, _⟩ => ⟨S1x1x1, .i32⟩
  | .hbm, ⟨47, _⟩ => ⟨S16384x360x1, .i32⟩
  | .hbm, ⟨48, _⟩ => ⟨S16384x360x1, .i1⟩
  | .hbm, ⟨49, _⟩ => ⟨S16384x360x1, .i1⟩
  | .hbm, ⟨50, _⟩ => ⟨S_, .i1⟩
  | .hbm, ⟨51, _⟩ => ⟨S16384x360, .i1⟩
  | .hbm, ⟨52, _⟩ => ⟨S16384x360, .f32⟩
  | .hbm, ⟨53, _⟩ => ⟨S_, .f32⟩
  | .hbm, ⟨54, _⟩ => ⟨S16384x360, .f32⟩
  | .hbm, ⟨55, _⟩ => ⟨S16384x360, .f32⟩
  | .hbm, ⟨56, _⟩ => ⟨S16384x360, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x360, .f32⟩
  | .hbm, ⟨61, _⟩ => ⟨S16384x360, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S16384x1, .f32⟩
  | .hbm, ⟨68, _⟩ => ⟨S16384x360, .f32⟩
  | .hbm, ⟨69, _⟩ => ⟨S16384x360, .f32⟩
  | .hbm, ⟨70, _⟩ => ⟨S16384x360, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x1, .f32⟩
  | .hbm, ⟨75, _⟩ => ⟨S16384x360, .f32⟩
  | .hbm, ⟨76, _⟩ => ⟨S16384x360, .f32⟩
  | .hbm, ⟨77, _⟩ => ⟨S16384x360, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1, .f32⟩
  | _, _ => ⟨S16384x4320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v8 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v9 : Ref sig .tc := ⟨.hbm, 55, rfl⟩
abbrev main_v10 : Ref sig .tc := ⟨.hbm, 56, rfl⟩
abbrev main_cst : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_call2_cst : Ref sig .tc := ⟨.hbm, 62, rfl⟩
abbrev main_call2_v0 : Ref sig .tc := ⟨.hbm, 63, rfl⟩
abbrev main_call2_cst_0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_cst_1 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_v15 : Ref sig .tc := ⟨.hbm, 76, rfl⟩
abbrev main_v16 : Ref sig .tc := ⟨.hbm, 77, rfl⟩
abbrev main_cst_0 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S360_S1x360_1 : S360.BroadcastsInDim S1x360 (![1] : Fin 1 → Fin S1x360.rank)
  bcast_S16384x1_S16384x360_0_1 : S16384x1.BroadcastsInDim S16384x360 (![0, 1] : Fin 2 → Fin S16384x360.rank)
  bcast_S1x360_S16384x360_0_1 : S1x360.BroadcastsInDim S16384x360 (![0, 1] : Fin 2 → Fin S16384x360.rank)
  bcast_S_S16384x360 : S_.BroadcastsInDim S16384x360 (![] : Fin 0 → Fin S16384x360.rank)
  shapeCasts_S16384x360_S16384x360x1 : S16384x360.ShapeCasts S16384x360x1
  bcast_S_S16384x360x1 : S_.BroadcastsInDim S16384x360x1 (![] : Fin 0 → Fin S16384x360x1.rank)
  bcast_S1_S1x1x1_2 : S1.BroadcastsInDim S1x1x1 (![2] : Fin 1 → Fin S1x1x1.rank)
  bcast_S1x1x1_S16384x360x1_0_1_2 : S1x1x1.BroadcastsInDim S16384x360x1 (![0, 1, 2] : Fin 3 → Fin S16384x360x1.rank)
  reducesTo_S16384x360x1_S16384x360_d2 : S16384x360x1.ReducesTo [2] S16384x360
  h_S_ : 0 < S_.numel
  reducesTo_S16384x360_S16384_d1 : S16384x360.ReducesTo [1] S16384
  bcast_S_S16384 : S_.BroadcastsInDim S16384 (![] : Fin 0 → Fin S16384.rank)
  reducesTo_S16384x360_S_d0_1 : S16384x360.ReducesTo [0, 1] S_
  shapeCasts_S_S1 : S_.ShapeCasts S1
  gather_S16384x4320_S16384x360x1_S16384x360_n_1_0_0_1_2_11_wf : GatherDims.WF S16384x4320 S16384x360x1 S16384x360 [] [1] [0] [1] [0] 2 ![1, 1]

variable [Facts₀]

def gather_S16384x4320_S16384x360x1_S16384x360_n_1_0_0_1_2_11 : GatherDims S16384x4320 S16384x360x1 S16384x360 where
  offsetDims := []
  collapsedSliceDims := [1]
  operandBatchingDims := [0]
  startIndicesBatchingDims := [0]
  startIndexMap := [1]
  indexVectorDim := 2
  sliceSizes := ![1, 1]
  wf := gather_S16384x4320_S16384x360x1_S16384x360_n_1_0_0_1_2_11_wf

class Facts : Prop extends Facts₀ where

variable [Facts]
-- ==== Proof.RefRunHand.lean ====
import proofs.«407616_j38285338477081_3_alg».proof.Proof.RefRead
import Idealize.ShloMosaic.Lib.StableHlo.Run
import Idealize.ShloMosaic.Lib.Pipeline.Frame

/-! The reference program's run, read stage by stage.

The program is a straight line of 79 host operations. Its result as ONE composed term of the three arguments repeats
every shared intermediate array once per consumer; here the line is cut at six places where few arrays are still to be
read, and each stretch is shown to take the stage values (`ReadP.val_…`, each defined from the earlier ones) at its
inputs to the stage value at its output, leaving alone the arrays a later stretch reads. Chaining the six stretches
gives the result array as `ReadP.val_main_v19` of the arguments, which is the composed term by `ReadP.val_main_v19_eq`. -/

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-! ## The six stretches -/

/-- The index array: row `r`, column `j` holds `360 * x2 r + j` (the row's label times the window width, plus the position in the window); nine operations, ending in `main_v7`. -/
def cA : List (HloOp τ sig (Elt F)) :=
  [ unary main_arg2 main_v0 (broadcastInDim S16384x1 ![0] bcast_S16384_S16384x1_0 : (⟨S16384, .i32⟩ : BufTy).Contents (Elt F) → (⟨S16384x1, .i32⟩ : BufTy).Contents (Elt F)),
    nullary main_c (constantI S_ 32 360#32),
    unary main_c main_v1 (broadcastInDim S16384x1 ![] bcast_S_S16384x1 : (⟨S_, .i32⟩ : BufTy).Contents (Elt F) → (⟨S16384x1, .i32⟩ : BufTy).Contents (Elt F)),
    binary main_v0 main_v1 main_v2 (muli : (⟨S16384x1, .i32⟩ : BufTy).Contents (Elt F) → (⟨S16384x1, .i32⟩ : BufTy).Contents (Elt F) → (⟨S16384x1, .i32⟩ : BufTy).Contents (Elt F)),
    nullary main_v3 (iotaInDim S360 32 0),
    unary main_v3 main_v4 (broadcastInDim S1x360 ![1] bcast_S360_S1x360_1 : (⟨S360, .i32⟩ : BufTy).Contents (Elt F) → (⟨S1x360, .i32⟩ : BufTy).Contents (Elt F)),
    unary main_v2 main_v5 (broadcastInDim S16384x360 ![0, 1] bcast_S16384x1_S16384x360_0_1 : (⟨S16384x1, .i32⟩ : BufTy).Contents (Elt F) → (⟨S16384x360, .i32⟩ : BufTy).Contents (Elt F)),
    unary main_v4 main_v6 (broadcastInDim S16384x360 ![0, 1] bcast_S1x360_S16384x360_0_1 : (⟨S1x360, .i32⟩ : BufTy).Contents (Elt F) → (⟨S16384x360, .i32⟩ : BufTy).Contents (Elt F)),
    binary main_v5 main_v6 main_v7 (addi : (⟨S16384x360, .i32⟩ : BufTy).Contents (Elt F) → (⟨S16384x360, .i32⟩ : BufTy).Contents (Elt F) → (⟨S16384x360, .i32⟩ : BufTy).Contents (Elt F)) ]

/-- The first gather along the last axis: the index array is wrapped (a negative index has 4320 added), reshaped to carry a trailing unit axis, tested for lying in `[0, 4319]`, and the first argument is read at it, with NaN where the test fails; ends in `main_v8`. -/
def cB : List (HloOp τ sig (Elt F)) :=
  [ nullary main_call0_c (constantI S_ 32 0#32 : (⟨S_, .i32⟩ : BufTy).Contents (Elt F)),
    unary main_call0_c main_call0_v0 (broadcastInDim S16384x360 ![] bcast_S_S16384x360 : (⟨S_, .i32⟩ : BufTy).Contents (Elt F) → (⟨S16384x360, .i32⟩ : BufTy).Contents (Elt F)),
    binary main_v7 main_call0_v0 main_call0_v1 (cmpi .slt : (⟨S16384x360, .i32⟩ : BufTy).Contents (Elt F) → (⟨S16384x360, .i32⟩ : BufTy).Contents (Elt F) → (⟨S16384x360, .i1⟩ : BufTy).Contents (Elt F)),
    nullary main_call0_c_0 (constantI S_ 32 4320#32 : (⟨S_, .i32⟩ : BufTy).Contents (Elt F)),
    unary main_call0_c_0 main_call0_v2 (broadcastInDim S16384x360 ![] bcast_S_S16384x360 : (⟨S_, .i32⟩ : BufTy).Contents (Elt F) → (⟨S16384x360, .i32⟩ : BufTy).Contents (Elt F)),
    binary main_v7 main_call0_v2 main_call0_v3 (addi : (⟨S16384x360, .i32⟩ : BufTy).Contents (Elt F) → (⟨S16384x360, .i32⟩ : BufTy).Contents (Elt F) → (⟨S16384x360, .i32⟩ : BufTy).Contents (Elt F)),
    ternary main_call0_v1 main_call0_v3 main_v7 main_call0_v4 (select : (⟨S16384x360, .i1⟩ : BufTy).Contents (Elt F) → (⟨S16384x360, .i32⟩ : BufTy).Contents (Elt F) → (⟨S16384x360, .i32⟩ : BufTy).Contents (Elt F) → (⟨S16384x360, .i32⟩ : BufTy).Contents (Elt F)),
    reshape main_call0_v4 main_call0_v5 rfl shapeCasts_S16384x360_S16384x360x1,
    nullary main_call0_c_1 (constantI S1 32 4319#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x360x1 ![] bcast_S_S16384x360x1 : (⟨S_, .i32⟩ : BufTy).Contents (Elt F) → (⟨S16384x360x1, .i32⟩ : BufTy).Contents (Elt F)),
    binary main_call0_v5 main_call0_v6 main_call0_v7 (cmpi .sge : (⟨S16384x360x1, .i32⟩ : BufTy).Contents (Elt F) → (⟨S16384x360x1, .i32⟩ : BufTy).Contents (Elt F) → (⟨S16384x360x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x360x1 ![0, 1, 2] bcast_S1x1x1_S16384x360x1_0_1_2 : (⟨S1x1x1, .i32⟩ : BufTy).Contents (Elt F) → (⟨S16384x360x1, .i32⟩ : BufTy).Contents (Elt F)),
    binary main_call0_v5 main_call0_v9 main_call0_v10 (cmpi .sle : (⟨S16384x360x1, .i32⟩ : BufTy).Contents (Elt F) → (⟨S16384x360x1, .i32⟩ : BufTy).Contents (Elt F) → (⟨S16384x360x1, .i1⟩ : BufTy).Contents (Elt F)),
    binary main_call0_v7 main_call0_v10 main_call0_v11 (andi : (⟨S16384x360x1, .i1⟩ : BufTy).Contents (Elt F) → (⟨S16384x360x1, .i1⟩ : BufTy).Contents (Elt F) → (⟨S16384x360x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S16384x360x1_S16384x360_d2 h_S_) : (⟨S16384x360x1, .i1⟩ : BufTy).Contents (Elt F) → (⟨S_, .i1⟩ : BufTy).Contents (Elt F) → (⟨S16384x360, .i1⟩ : BufTy).Contents (Elt F)),
    binary main_arg0 main_call0_v5 main_call0_v13 ((fun x i => Host.gather gather_S16384x4320_S16384x360x1_S16384x360_n_1_0_0_1_2_11 x i) : (⟨S16384x4320, .f32⟩ : BufTy).Contents (Elt F) → (⟨S16384x360x1, .i32⟩ : BufTy).Contents (Elt F) → (⟨S16384x360, .f32⟩ : BufTy).Contents (Elt F)),
    nullary main_call0_cst (constant S_ .f32 0x7FC00000#32 : (⟨S_, .f32⟩ : BufTy).Contents (Elt F)),
    unary main_call0_cst main_call0_v14 (broadcastInDim S16384x360 ![] bcast_S_S16384x360 : (⟨S_, .f32⟩ : BufTy).Contents (Elt F) → (⟨S16384x360, .f32⟩ : BufTy).Contents (Elt F)),
    ternary main_call0_v12 main_call0_v13 main_call0_v14 main_v8 (select : (⟨S16384x360, .i1⟩ : BufTy).Contents (Elt F) → (⟨S16384x360, .f32⟩ : BufTy).Contents (Elt F) → (⟨S16384x360, .f32⟩ : BufTy).Contents (Elt F) → (⟨S16384x360, .f32⟩ : BufTy).Contents (Elt F)) ]

/-- The second gather along the last axis: the same twenty-two operations on the second argument; ends in `main_v9`. -/
def cC : List (HloOp τ sig (Elt F)) :=
  [ nullary main_call1_c (constantI S_ 32 0#32 : (⟨S_, .i32⟩ : BufTy).Contents (Elt F)),
    unary main_call1_c main_call1_v0 (broadcastInDim S16384x360 ![] bcast_S_S16384x360 : (⟨S_, .i32⟩ : BufTy).Contents (Elt F) → (⟨S16384x360, .i32⟩ : BufTy).Contents (Elt F)),
    binary main_v7 main_call1_v0 main_call1_v1 (cmpi .slt : (⟨S16384x360, .i32⟩ : BufTy).Contents (Elt F) → (⟨S16384x360, .i32⟩ : BufTy).Contents (Elt F) → (⟨S16384x360, .i1⟩ : BufTy).Contents (Elt F)),
    nullary main_call1_c_0 (constantI S_ 32 4320#32 : (⟨S_, .i32⟩ : BufTy).Contents (Elt F)),
    unary main_call1_c_0 main_call1_v2 (broadcastInDim S16384x360 ![] bcast_S_S16384x360 : (⟨S_, .i32⟩ : BufTy).Contents (Elt F) → (⟨S16384x360, .i32⟩ : BufTy).Contents (Elt F)),
    binary main_v7 main_call1_v2 main_call1_v3 (addi : (⟨S16384x360, .i32⟩ : BufTy).Contents (Elt F) → (⟨S16384x360, .i32⟩ : BufTy).Contents (Elt F) → (⟨S16384x360, .i32⟩ : BufTy).Contents (Elt F)),
    ternary main_call1_v1 main_call1_v3 main_v7 main_call1_v4 (select : (⟨S16384x360, .i1⟩ : BufTy).Contents (Elt F) → (⟨S16384x360, .i32⟩ : BufTy).Contents (Elt F) → (⟨S16384x360, .i32⟩ : BufTy).Contents (Elt F) → (⟨S16384x360, .i32⟩ : BufTy).Contents (Elt F)),
    reshape main_call1_v4 main_call1_v5 rfl shapeCasts_S16384x360_S16384x360x1,
    nullary main_call1_c_1 (constantI S1 32 4319#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x360x1 ![] bcast_S_S16384x360x1 : (⟨S_, .i32⟩ : BufTy).Contents (Elt F) → (⟨S16384x360x1, .i32⟩ : BufTy).Contents (Elt F)),
    binary main_call1_v5 main_call1_v6 main_call1_v7 (cmpi .sge : (⟨S16384x360x1, .i32⟩ : BufTy).Contents (Elt F) → (⟨S16384x360x1, .i32⟩ : BufTy).Contents (Elt F) → (⟨S16384x360x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S16384x360x1 ![0, 1, 2] bcast_S1x1x1_S16384x360x1_0_1_2 : (⟨S1x1x1, .i32⟩ : BufTy).Contents (Elt F) → (⟨S16384x360x1, .i32⟩ : BufTy).Contents (Elt F)),
    binary main_call1_v5 main_call1_v9 main_call1_v10 (cmpi .sle : (⟨S16384x360x1, .i32⟩ : BufTy).Contents (Elt F) → (⟨S16384x360x1, .i32⟩ : BufTy).Contents (Elt F) → (⟨S16384x360x1, .i1⟩ : BufTy).Contents (Elt F)),
    binary main_call1_v7 main_call1_v10 main_call1_v11 (andi : (⟨S16384x360x1, .i1⟩ : BufTy).Contents (Elt F) → (⟨S16384x360x1, .i1⟩ : BufTy).Contents (Elt F) → (⟨S16384x360x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S16384x360x1_S16384x360_d2 h_S_) : (⟨S16384x360x1, .i1⟩ : BufTy).Contents (Elt F) → (⟨S_, .i1⟩ : BufTy).Contents (Elt F) → (⟨S16384x360, .i1⟩ : BufTy).Contents (Elt F)),
    binary main_arg1 main_call1_v5 main_call1_v13 ((fun x i => Host.gather gather_S16384x4320_S16384x360x1_S16384x360_n_1_0_0_1_2_11 x i) : (⟨S16384x4320, .f32⟩ : BufTy).Contents (Elt F) → (⟨S16384x360x1, .i32⟩ : BufTy).Contents (Elt F) → (⟨S16384x360, .f32⟩ : BufTy).Contents (Elt F)),
    nullary main_call1_cst (constant S_ .f32 0x7FC00000#32 : (⟨S_, .f32⟩ : BufTy).Contents (Elt F)),
    unary main_call1_cst main_call1_v14 (broadcastInDim S16384x360 ![] bcast_S_S16384x360 : (⟨S_, .f32⟩ : BufTy).Contents (Elt F) → (⟨S16384x360, .f32⟩ : BufTy).Contents (Elt F)),
    ternary main_call1_v12 main_call1_v13 main_call1_v14 main_v9 (select : (⟨S16384x360, .i1⟩ : BufTy).Contents (Elt F) → (⟨S16384x360, .f32⟩ : BufTy).Contents (Elt F) → (⟨S16384x360, .f32⟩ : BufTy).Contents (Elt F) → (⟨S16384x360, .f32⟩ : BufTy).Contents (Elt F)) ]

/-- The first gathered array divided, row by row, by the row's sum of absolute values; ends in `main_v14`. -/
def cD : List (HloOp τ sig (Elt F)) :=
  [ unary main_v8 main_v10 (Host.absf : (⟨S16384x360, .f32⟩ : BufTy).Contents (Elt F) → (⟨S16384x360, .f32⟩ : BufTy).Contents (Elt F)),
    nullary main_cst (constant S_ .f32 0x00000000#32),
    binary main_v10 main_cst main_v11 ((fun x v => Host.reduceAdd x v reducesTo_S16384x360_S16384_d1 h_S_) : (⟨S16384x360, .f32⟩ : BufTy).Contents (Elt F) → (⟨S_, .f32⟩ : BufTy).Contents (Elt F) → (⟨S16384, .f32⟩ : BufTy).Contents (Elt F)),
    unary main_v11 main_v12 (broadcastInDim S16384x1 ![0] bcast_S16384_S16384x1_0 : (⟨S16384, .f32⟩ : BufTy).Contents (Elt F) → (⟨S16384x1, .f32⟩ : BufTy).Contents (Elt F)),
    unary main_v12 main_v13 (broadcastInDim S16384x360 ![0, 1] bcast_S16384x1_S16384x360_0_1 : (⟨S16384x1, .f32⟩ : BufTy).Contents (Elt F) → (⟨S16384x360, .f32⟩ : BufTy).Contents (Elt F)),
    binary main_v8 main_v13 main_v14 (Host.divf : (⟨S16384x360, .f32⟩ : BufTy).Contents (Elt F) → (⟨S16384x360, .f32⟩ : BufTy).Contents (Elt F) → (⟨S16384x360, .f32⟩ : BufTy).Contents (Elt F)) ]

/-- The logarithm of the softmax along the last axis: subtract the row's maximum, then subtract the logarithm of the row's sum of exponentials; ends in `main_v15`. -/
def cE : List (HloOp τ sig (Elt F)) :=
  [ nullary main_call2_cst (constant S_ .f32 0xFF800000#32 : (⟨S_, .f32⟩ : BufTy).Contents (Elt F)),
    binary main_v14 main_call2_cst main_call2_v0 ((fun x v => Host.reduce FloatOps.maximumf x v reducesTo_S16384x360_S16384_d1 h_S_) : (⟨S16384x360, .f32⟩ : BufTy).Contents (Elt F) → (⟨S_, .f32⟩ : BufTy).Contents (Elt F) → (⟨S16384, .f32⟩ : BufTy).Contents (Elt F)),
    nullary main_call2_cst_0 (constant S_ .f32 0xFF800000#32 : (⟨S_, .f32⟩ : BufTy).Contents (Elt F)),
    unary main_call2_cst_0 main_call2_v1 (broadcastInDim S16384 ![] bcast_S_S16384 : (⟨S_, .f32⟩ : BufTy).Contents (Elt F) → (⟨S16384, .f32⟩ : BufTy).Contents (Elt F)),
    binary main_call2_v1 main_call2_v0 main_call2_v2 (maximumf : (⟨S16384, .f32⟩ : BufTy).Contents (Elt F) → (⟨S16384, .f32⟩ : BufTy).Contents (Elt F) → (⟨S16384, .f32⟩ : BufTy).Contents (Elt F)),
    unary main_call2_v2 main_call2_v3 (broadcastInDim S16384x1 ![0] bcast_S16384_S16384x1_0 : (⟨S16384, .f32⟩ : BufTy).Contents (Elt F) → (⟨S16384x1, .f32⟩ : BufTy).Contents (Elt F)),
    unary main_call2_v3 main_call2_v4 (broadcastInDim S16384x360 ![0, 1] bcast_S16384x1_S16384x360_0_1 : (⟨S16384x1, .f32⟩ : BufTy).Contents (Elt F) → (⟨S16384x360, .f32⟩ : BufTy).Contents (Elt F)),
    binary main_v14 main_call2_v4 main_call2_v5 (subf : (⟨S16384x360, .f32⟩ : BufTy).Contents (Elt F) → (⟨S16384x360, .f32⟩ : BufTy).Contents (Elt F) → (⟨S16384x360, .f32⟩ : BufTy).Contents (Elt F)),
    unary main_call2_v5 main_call2_v6 (Host.exp : (⟨S16384x360, .f32⟩ : BufTy).Contents (Elt F) → (⟨S16384x360, .f32⟩ : BufTy).Contents (Elt F)),
    nullary main_call2_cst_1 (constant S_ .f32 0x00000000#32 : (⟨S_, .f32⟩ : BufTy).Contents (Elt F)),
    binary main_call2_v6 main_call2_cst_1 main_call2_v7 ((fun x v => Host.reduceAdd x v reducesTo_S16384x360_S16384_d1 h_S_) : (⟨S16384x360, .f32⟩ : BufTy).Contents (Elt F) → (⟨S_, .f32⟩ : BufTy).Contents (Elt F) → (⟨S16384, .f32⟩ : BufTy).Contents (Elt F)),
    unary main_call2_v7 main_call2_v8 (broadcastInDim S16384x1 ![0] bcast_S16384_S16384x1_0 : (⟨S16384, .f32⟩ : BufTy).Contents (Elt F) → (⟨S16384x1, .f32⟩ : BufTy).Contents (Elt F)),
    unary main_call2_v8 main_call2_v9 (Host.log : (⟨S16384x1, .f32⟩ : BufTy).Contents (Elt F) → (⟨S16384x1, .f32⟩ : BufTy).Contents (Elt F)),
    unary main_call2_v9 main_call2_v10 (broadcastInDim S16384x360 ![0, 1] bcast_S16384x1_S16384x360_0_1 : (⟨S16384x1, .f32⟩ : BufTy).Contents (Elt F) → (⟨S16384x360, .f32⟩ : BufTy).Contents (Elt F)),
    binary main_call2_v5 main_call2_v10 main_v15 (subf : (⟨S16384x360, .f32⟩ : BufTy).Contents (Elt F) → (⟨S16384x360, .f32⟩ : BufTy).Contents (Elt F) → (⟨S16384x360, .f32⟩ : BufTy).Contents (Elt F)) ]

/-- The product of the second gathered array with the log-softmax, summed over every index, negated, and reshaped from rank 0 to one element; ends in `main_v19`. -/
def cF : List (HloOp τ sig (Elt F)) :=
  [ binary main_v9 main_v15 main_v16 (mulf : (⟨S16384x360, .f32⟩ : BufTy).Contents (Elt F) → (⟨S16384x360, .f32⟩ : BufTy).Contents (Elt F) → (⟨S16384x360, .f32⟩ : BufTy).Contents (Elt F)),
    nullary main_cst_0 (constant S_ .f32 0x00000000#32),
    binary main_v16 main_cst_0 main_v17 ((fun x v => Host.reduceAdd x v reducesTo_S16384x360_S_d0_1 h_S_) : (⟨S16384x360, .f32⟩ : BufTy).Contents (Elt F) → (⟨S_, .f32⟩ : BufTy).Contents (Elt F) → (⟨S_, .f32⟩ : BufTy).Contents (Elt F)),
    unary main_v17 main_v18 (Host.negf : (⟨S_, .f32⟩ : BufTy).Contents (Elt F) → (⟨S_, .f32⟩ : BufTy).Contents (Elt F)),
    reshape main_v18 main_v19 rfl shapeCasts_S_S1 ]

/-! ## An inlined callee's operations, at the bare references

The operations of the three inlined callees are printed over references that carry their array's type, the function
moved to the buffer's own type along a type equation that holds by computation. Each is the same operation stated
directly at the bare references (as @main's own operations are): the two differ by identity transports only. For the
three folds over an axis the equation is stated for an arbitrary function in the fold's place, so that the fold itself
is never opened. -/

theorem bare_main_call0_c :
    (TRef.nullary (TRef.of (T := ⟨S_, .i32⟩) main_call0_c) (constantI S_ 32 0#32) : HloOp τ sig (Elt F))
      = nullary main_call0_c (constantI S_ 32 0#32 : (⟨S_, .i32⟩ : BufTy).Contents (Elt F)) := rfl
theorem bare_main_call0_v0 :
    (TRef.unary (TRef.of (T := ⟨S_, .i32⟩) main_call0_c) (TRef.of (T := ⟨S16384x360, .i32⟩) main_call0_v0) (broadcastInDim S16384x360 ![] bcast_S_S16384x360) : HloOp τ sig (Elt F))
      = unary main_call0_c main_call0_v0 (broadcastInDim S16384x360 ![] bcast_S_S16384x360 : (⟨S_, .i32⟩ : BufTy).Contents (Elt F) → (⟨S16384x360, .i32⟩ : BufTy).Contents (Elt F)) := rfl
theorem bare_main_call0_v1 :
    (TRef.binary (TRef.of (T := ⟨S16384x360, .i32⟩) main_v7) (TRef.of (T := ⟨S16384x360, .i32⟩) main_call0_v0) (TRef.of (T := ⟨S16384x360, .i1⟩) main_call0_v1) (cmpi .slt) : HloOp τ sig (Elt F))
      = binary main_v7 main_call0_v0 main_call0_v1 (cmpi .slt : (⟨S16384x360, .i32⟩ : BufTy).Contents (Elt F) → (⟨S16384x360, .i32⟩ : BufTy).Contents (Elt F) → (⟨S16384x360, .i1⟩ : BufTy).Contents (Elt F)) := rfl
theorem bare_main_call0_c_0 :
    (TRef.nullary (TRef.of (T := ⟨S_, .i32⟩) main_call0_c_0) (constantI S_ 32 4320#32) : HloOp τ sig (Elt F))
      = nullary main_call0_c_0 (constantI S_ 32 4320#32 : (⟨S_, .i32⟩ : BufTy).Contents (Elt F)) := rfl
theorem bare_main_call0_v2 :
    (TRef.unary (TRef.of (T := ⟨S_, .i32⟩) main_call0_c_0) (TRef.of (T := ⟨S16384x360, .i32⟩) main_call0_v2) (broadcastInDim S16384x360 ![] bcast_S_S16384x360) : HloOp τ sig (Elt F))
      = unary main_call0_c_0 main_call0_v2 (broadcastInDim S16384x360 ![] bcast_S_S16384x360 : (⟨S_, .i32⟩ : BufTy).Contents (Elt F) → (⟨S16384x360, .i32⟩ : BufTy).Contents (Elt F)) := rfl
theorem bare_main_call0_v3 :
    (TRef.binary (TRef.of (T := ⟨S16384x360, .i32⟩) main_v7) (TRef.of (T := ⟨S16384x360, .i32⟩) main_call0_v2) (TRef.of (T := ⟨S16384x360, .i32⟩) main_call0_v3) addi : HloOp τ sig (Elt F))
      = binary main_v7 main_call0_v2 main_call0_v3 (addi : (⟨S16384x360, .i32⟩ : BufTy).Contents (Elt F) → (⟨S16384x360, .i32⟩ : BufTy).Contents (Elt F) → (⟨S16384x360, .i32⟩ : BufTy).Contents (Elt F)) := rfl
theorem bare_main_call0_v4 :
    (TRef.ternary (TRef.of (T := ⟨S16384x360, .i1⟩) main_call0_v1) (TRef.of (T := ⟨S16384x360, .i32⟩) main_call0_v3) (TRef.of (T := ⟨S16384x360, .i32⟩) main_v7) (TRef.of (T := ⟨S16384x360, .i32⟩) main_call0_v4) select : HloOp τ sig (Elt F))
      = ternary main_call0_v1 main_call0_v3 main_v7 main_call0_v4 (select : (⟨S16384x360, .i1⟩ : BufTy).Contents (Elt F) → (⟨S16384x360, .i32⟩ : BufTy).Contents (Elt F) → (⟨S16384x360, .i32⟩ : BufTy).Contents (Elt F) → (⟨S16384x360, .i32⟩ : BufTy).Contents (Elt F)) := rfl
theorem bare_main_call0_v5 :
    (TRef.reshape (TRef.of (T := ⟨S16384x360, .i32⟩) main_call0_v4) (TRef.of (T := ⟨S16384x360x1, .i32⟩) main_call0_v5) rfl shapeCasts_S16384x360_S16384x360x1 : HloOp τ sig (Elt F))
      = reshape main_call0_v4 main_call0_v5 rfl shapeCasts_S16384x360_S16384x360x1 := rfl
theorem bare_main_call0_c_1 :
    (TRef.nullary (TRef.of (T := ⟨S1, .i32⟩) main_call0_c_1) (constantI S1 32 4319#32) : HloOp τ sig (Elt F))
      = nullary main_call0_c_1 (constantI S1 32 4319#32 : (⟨S1, .i32⟩ : BufTy).Contents (Elt F)) := rfl
theorem bare_main_call0_c_2 :
    (TRef.nullary (TRef.of (T := ⟨S_, .i32⟩) main_call0_c_2) (constantI S_ 32 0#32) : HloOp τ sig (Elt F))
      = nullary main_call0_c_2 (constantI S_ 32 0#32 : (⟨S_, .i32⟩ : BufTy).Contents (Elt F)) := rfl
theorem bare_main_call0_v6 :
    (TRef.unary (TRef.of (T := ⟨S_, .i32⟩) main_call0_c_2) (TRef.of (T := ⟨S16384x360x1, .i32⟩) main_call0_v6) (broadcastInDim S16384x360x1 ![] bcast_S_S16384x360x1) : HloOp τ sig (Elt F))
      = unary main_call0_c_2 main_call0_v6 (broadcastInDim S16384x360x1 ![] bcast_S_S16384x360x1 : (⟨S_, .i32⟩ : BufTy).Contents (Elt F) → (⟨S16384x360x1, .i32⟩ : BufTy).Contents (Elt F)) := rfl
theorem bare_main_call0_v7 :
    (TRef.binary (TRef.of (T := ⟨S16384x360x1, .i32⟩) main_call0_v5) (TRef.of (T := ⟨S16384x360x1, .i32⟩) main_call0_v6) (TRef.of (T := ⟨S16384x360x1, .i1⟩) main_call0_v7) (cmpi .sge) : HloOp τ sig (Elt F))
      = binary main_call0_v5 main_call0_v6 main_call0_v7 (cmpi .sge : (⟨S16384x360x1, .i32⟩ : BufTy).Contents (Elt F) → (⟨S16384x360x1, .i32⟩ : BufTy).Contents (Elt F) → (⟨S16384x360x1, .i1⟩ : BufTy).Contents (Elt F)) := rfl
theorem bare_main_call0_v8 :
    (TRef.unary (TRef.of (T := ⟨S1, .i32⟩) main_call0_c_1) (TRef.of (T := ⟨S1x1x1, .i32⟩) main_call0_v8) (broadcastInDim S1x1x1 ![2] bcast_S1_S1x1x1_2) : HloOp τ sig (Elt F))
      = unary main_call0_c_1 main_call0_v8 (broadcastInDim S1x1x1 ![2] bcast_S1_S1x1x1_2 : (⟨S1, .i32⟩ : BufTy).Contents (Elt F) → (⟨S1x1x1, .i32⟩ : BufTy).Contents (Elt F)) := rfl
theorem bare_main_call0_v9 :
    (TRef.unary (TRef.of (T := ⟨S1x1x1, .i32⟩) main_call0_v8) (TRef.of (T := ⟨S16384x360x1, .i32⟩) main_call0_v9) (broadcastInDim S16384x360x1 ![0, 1, 2] bcast_S1x1x1_S16384x360x1_0_1_2) : HloOp τ sig (Elt F))
      = unary main_call0_v8 main_call0_v9 (broadcastInDim S16384x360x1 ![0, 1, 2] bcast_S1x1x1_S16384x360x1_0_1_2 : (⟨S1x1x1, .i32⟩ : BufTy).Contents (Elt F) → (⟨S16384x360x1, .i32⟩ : BufTy).Contents (Elt F)) := rfl
theorem bare_main_call0_v10 :
    (TRef.binary (TRef.of (T := ⟨S16384x360x1, .i32⟩) main_call0_v5) (TRef.of (T := ⟨S16384x360x1, .i32⟩) main_call0_v9) (TRef.of (T := ⟨S16384x360x1, .i1⟩) main_call0_v10) (cmpi .sle) : HloOp τ sig (Elt F))
      = binary main_call0_v5 main_call0_v9 main_call0_v10 (cmpi .sle : (⟨S16384x360x1, .i32⟩ : BufTy).Contents (Elt F) → (⟨S16384x360x1, .i32⟩ : BufTy).Contents (Elt F) → (⟨S16384x360x1, .i1⟩ : BufTy).Contents (Elt F)) := rfl
theorem bare_main_call0_v11 :
    (TRef.binary (TRef.of (T := ⟨S16384x360x1, .i1⟩) main_call0_v7) (TRef.of (T := ⟨S16384x360x1, .i1⟩) main_call0_v10) (TRef.of (T := ⟨S16384x360x1, .i1⟩) main_call0_v11) andi : HloOp τ sig (Elt F))
      = binary main_call0_v7 main_call0_v10 main_call0_v11 (andi : (⟨S16384x360x1, .i1⟩ : BufTy).Contents (Elt F) → (⟨S16384x360x1, .i1⟩ : BufTy).Contents (Elt F) → (⟨S16384x360x1, .i1⟩ : BufTy).Contents (Elt F)) := rfl
theorem bare_main_call0_c_3 :
    (TRef.nullary (TRef.of (T := ⟨S_, .i1⟩) main_call0_c_3) (constantI S_ 1 1#1) : HloOp τ sig (Elt F))
      = nullary main_call0_c_3 (constantI S_ 1 1#1 : (⟨S_, .i1⟩ : BufTy).Contents (Elt F)) := rfl
theorem bare_fn_main_call0_v12 (f : (⟨S16384x360x1, .i1⟩ : BufTy).Contents (Elt F) → (⟨S_, .i1⟩ : BufTy).Contents (Elt F) → (⟨S16384x360, .i1⟩ : BufTy).Contents (Elt F)) :
    (TRef.binary (TRef.of (T := ⟨S16384x360x1, .i1⟩) main_call0_v11) (TRef.of (T := ⟨S_, .i1⟩) main_call0_c_3) (TRef.of (T := ⟨S16384x360, .i1⟩) main_call0_v12) f : HloOp τ sig (Elt F)) = binary main_call0_v11 main_call0_c_3 main_call0_v12 f := rfl
theorem bare_main_call0_v12 :
    (TRef.binary (TRef.of (T := ⟨S16384x360x1, .i1⟩) main_call0_v11) (TRef.of (T := ⟨S_, .i1⟩) main_call0_c_3) (TRef.of (T := ⟨S16384x360, .i1⟩) main_call0_v12) (fun x v => Host.reduce IntOp.andi x v reducesTo_S16384x360x1_S16384x360_d2 h_S_) : HloOp τ sig (Elt F))
      = binary main_call0_v11 main_call0_c_3 main_call0_v12 ((fun x v => Host.reduce IntOp.andi x v reducesTo_S16384x360x1_S16384x360_d2 h_S_) : (⟨S16384x360x1, .i1⟩ : BufTy).Contents (Elt F) → (⟨S_, .i1⟩ : BufTy).Contents (Elt F) → (⟨S16384x360, .i1⟩ : BufTy).Contents (Elt F)) := bare_fn_main_call0_v12 _
theorem bare_main_call0_v13 :
    (TRef.binary (TRef.of (T := ⟨S16384x4320, .f32⟩) main_arg0) (TRef.of (T := ⟨S16384x360x1, .i32⟩) main_call0_v5) (TRef.of (T := ⟨S16384x360, .f32⟩) main_call0_v13) (fun x i => Host.gather gather_S16384x4320_S16384x360x1_S16384x360_n_1_0_0_1_2_11 x i) : HloOp τ sig (Elt F))
      = binary main_arg0 main_call0_v5 main_call0_v13 ((fun x i => Host.gather gather_S16384x4320_S16384x360x1_S16384x360_n_1_0_0_1_2_11 x i) : (⟨S16384x4320, .f32⟩ : BufTy).Contents (Elt F) → (⟨S16384x360x1, .i32⟩ : BufTy).Contents (Elt F) → (⟨S16384x360, .f32⟩ : BufTy).Contents (Elt F)) := rfl
theorem bare_main_call0_cst :
    (TRef.nullary (TRef.of (T := ⟨S_, .f32⟩) main_call0_cst) (constant S_ .f32 0x7FC00000#32) : HloOp τ sig (Elt F))
      = nullary main_call0_cst (constant S_ .f32 0x7FC00000#32 : (⟨S_, .f32⟩ : BufTy).Contents (Elt F)) := rfl
theorem bare_main_call0_v14 :
    (TRef.unary (TRef.of (T := ⟨S_, .f32⟩) main_call0_cst) (TRef.of (T := ⟨S16384x360, .f32⟩) main_call0_v14) (broadcastInDim S16384x360 ![] bcast_S_S16384x360) : HloOp τ sig (Elt F))
      = unary main_call0_cst main_call0_v14 (broadcastInDim S16384x360 ![] bcast_S_S16384x360 : (⟨S_, .f32⟩ : BufTy).Contents (Elt F) → (⟨S16384x360, .f32⟩ : BufTy).Contents (Elt F)) := rfl
theorem bare_main_v8 :
    (TRef.ternary (TRef.of (T := ⟨S16384x360, .i1⟩) main_call0_v12) (TRef.of (T := ⟨S16384x360, .f32⟩) main_call0_v13) (TRef.of (T := ⟨S16384x360, .f32⟩) main_call0_v14) (TRef.of (T := ⟨S16384x360, .f32⟩) main_v8) select : HloOp τ sig (Elt F))
      = ternary main_call0_v12 main_call0_v13 main_call0_v14 main_v8 (select : (⟨S16384x360, .i1⟩ : BufTy).Contents (Elt F) → (⟨S16384x360, .f32⟩ : BufTy).Contents (Elt F) → (⟨S16384x360, .f32⟩ : BufTy).Contents (Elt F) → (⟨S16384x360, .f32⟩ : BufTy).Contents (Elt F)) := rfl
theorem bare_main_call1_c :
    (TRef.nullary (TRef.of (T := ⟨S_, .i32⟩) main_call1_c) (constantI S_ 32 0#32) : HloOp τ sig (Elt F))
      = nullary main_call1_c (constantI S_ 32 0#32 : (⟨S_, .i32⟩ : BufTy).Contents (Elt F)) := rfl
theorem bare_main_call1_v0 :
    (TRef.unary (TRef.of (T := ⟨S_, .i32⟩) main_call1_c) (TRef.of (T := ⟨S16384x360, .i32⟩) main_call1_v0) (broadcastInDim S16384x360 ![] bcast_S_S16384x360) : HloOp τ sig (Elt F))
      = unary main_call1_c main_call1_v0 (broadcastInDim S16384x360 ![] bcast_S_S16384x360 : (⟨S_, .i32⟩ : BufTy).Contents (Elt F) → (⟨S16384x360, .i32⟩ : BufTy).Contents (Elt F)) := rfl
theorem bare_main_call1_v1 :
    (TRef.binary (TRef.of (T := ⟨S16384x360, .i32⟩) main_v7) (TRef.of (T := ⟨S16384x360, .i32⟩) main_call1_v0) (TRef.of (T := ⟨S16384x360, .i1⟩) main_call1_v1) (cmpi .slt) : HloOp τ sig (Elt F))
      = binary main_v7 main_call1_v0 main_call1_v1 (cmpi .slt : (⟨S16384x360, .i32⟩ : BufTy).Contents (Elt F) → (⟨S16384x360, .i32⟩ : BufTy).Contents (Elt F) → (⟨S16384x360, .i1⟩ : BufTy).Contents (Elt F)) := rfl
theorem bare_main_call1_c_0 :
    (TRef.nullary (TRef.of (T := ⟨S_, .i32⟩) main_call1_c_0) (constantI S_ 32 4320#32) : HloOp τ sig (Elt F))
      = nullary main_call1_c_0 (constantI S_ 32 4320#32 : (⟨S_, .i32⟩ : BufTy).Contents (Elt F)) := rfl
theorem bare_main_call1_v2 :
    (TRef.unary (TRef.of (T := ⟨S_, .i32⟩) main_call1_c_0) (TRef.of (T := ⟨S16384x360, .i32⟩) main_call1_v2) (broadcastInDim S16384x360 ![] bcast_S_S16384x360) : HloOp τ sig (Elt F))
      = unary main_call1_c_0 main_call1_v2 (broadcastInDim S16384x360 ![] bcast_S_S16384x360 : (⟨S_, .i32⟩ : BufTy).Contents (Elt F) → (⟨S16384x360, .i32⟩ : BufTy).Contents (Elt F)) := rfl
theorem bare_main_call1_v3 :
    (TRef.binary (TRef.of (T := ⟨S16384x360, .i32⟩) main_v7) (TRef.of (T := ⟨S16384x360, .i32⟩) main_call1_v2) (TRef.of (T := ⟨S16384x360, .i32⟩) main_call1_v3) addi : HloOp τ sig (Elt F))
      = binary main_v7 main_call1_v2 main_call1_v3 (addi : (⟨S16384x360, .i32⟩ : BufTy).Contents (Elt F) → (⟨S16384x360, .i32⟩ : BufTy).Contents (Elt F) → (⟨S16384x360, .i32⟩ : BufTy).Contents (Elt F)) := rfl
theorem bare_main_call1_v4 :
    (TRef.ternary (TRef.of (T := ⟨S16384x360, .i1⟩) main_call1_v1) (TRef.of (T := ⟨S16384x360, .i32⟩) main_call1_v3) (TRef.of (T := ⟨S16384x360, .i32⟩) main_v7) (TRef.of (T := ⟨S16384x360, .i32⟩) main_call1_v4) select : HloOp τ sig (Elt F))
      = ternary main_call1_v1 main_call1_v3 main_v7 main_call1_v4 (select : (⟨S16384x360, .i1⟩ : BufTy).Contents (Elt F) → (⟨S16384x360, .i32⟩ : BufTy).Contents (Elt F) → (⟨S16384x360, .i32⟩ : BufTy).Contents (Elt F) → (⟨S16384x360, .i32⟩ : BufTy).Contents (Elt F)) := rfl
theorem bare_main_call1_v5 :
    (TRef.reshape (TRef.of (T := ⟨S16384x360, .i32⟩) main_call1_v4) (TRef.of (T := ⟨S16384x360x1, .i32⟩) main_call1_v5) rfl shapeCasts_S16384x360_S16384x360x1 : HloOp τ sig (Elt F))
      = reshape main_call1_v4 main_call1_v5 rfl shapeCasts_S16384x360_S16384x360x1 := rfl
theorem bare_main_call1_c_1 :
    (TRef.nullary (TRef.of (T := ⟨S1, .i32⟩) main_call1_c_1) (constantI S1 32 4319#32) : HloOp τ sig (Elt F))
      = nullary main_call1_c_1 (constantI S1 32 4319#32 : (⟨S1, .i32⟩ : BufTy).Contents (Elt F)) := rfl
theorem bare_main_call1_c_2 :
    (TRef.nullary (TRef.of (T := ⟨S_, .i32⟩) main_call1_c_2) (constantI S_ 32 0#32) : HloOp τ sig (Elt F))
      = nullary main_call1_c_2 (constantI S_ 32 0#32 : (⟨S_, .i32⟩ : BufTy).Contents (Elt F)) := rfl
theorem bare_main_call1_v6 :
    (TRef.unary (TRef.of (T := ⟨S_, .i32⟩) main_call1_c_2) (TRef.of (T := ⟨S16384x360x1, .i32⟩) main_call1_v6) (broadcastInDim S16384x360x1 ![] bcast_S_S16384x360x1) : HloOp τ sig (Elt F))
      = unary main_call1_c_2 main_call1_v6 (broadcastInDim S16384x360x1 ![] bcast_S_S16384x360x1 : (⟨S_, .i32⟩ : BufTy).Contents (Elt F) → (⟨S16384x360x1, .i32⟩ : BufTy).Contents (Elt F)) := rfl
theorem bare_main_call1_v7 :
    (TRef.binary (TRef.of (T := ⟨S16384x360x1, .i32⟩) main_call1_v5) (TRef.of (T := ⟨S16384x360x1, .i32⟩) main_call1_v6) (TRef.of (T := ⟨S16384x360x1, .i1⟩) main_call1_v7) (cmpi .sge) : HloOp τ sig (Elt F))
      = binary main_call1_v5 main_call1_v6 main_call1_v7 (cmpi .sge : (⟨S16384x360x1, .i32⟩ : BufTy).Contents (Elt F) → (⟨S16384x360x1, .i32⟩ : BufTy).Contents (Elt F) → (⟨S16384x360x1, .i1⟩ : BufTy).Contents (Elt F)) := rfl
theorem bare_main_call1_v8 :
    (TRef.unary (TRef.of (T := ⟨S1, .i32⟩) main_call1_c_1) (TRef.of (T := ⟨S1x1x1, .i32⟩) main_call1_v8) (broadcastInDim S1x1x1 ![2] bcast_S1_S1x1x1_2) : HloOp τ sig (Elt F))
      = unary main_call1_c_1 main_call1_v8 (broadcastInDim S1x1x1 ![2] bcast_S1_S1x1x1_2 : (⟨S1, .i32⟩ : BufTy).Contents (Elt F) → (⟨S1x1x1, .i32⟩ : BufTy).Contents (Elt F)) := rfl
theorem bare_main_call1_v9 :
    (TRef.unary (TRef.of (T := ⟨S1x1x1, .i32⟩) main_call1_v8) (TRef.of (T := ⟨S16384x360x1, .i32⟩) main_call1_v9) (broadcastInDim S16384x360x1 ![0, 1, 2] bcast_S1x1x1_S16384x360x1_0_1_2) : HloOp τ sig (Elt F))
      = unary main_call1_v8 main_call1_v9 (broadcastInDim S16384x360x1 ![0, 1, 2] bcast_S1x1x1_S16384x360x1_0_1_2 : (⟨S1x1x1, .i32⟩ : BufTy).Contents (Elt F) → (⟨S16384x360x1, .i32⟩ : BufTy).Contents (Elt F)) := rfl
theorem bare_main_call1_v10 :
    (TRef.binary (TRef.of (T := ⟨S16384x360x1, .i32⟩) main_call1_v5) (TRef.of (T := ⟨S16384x360x1, .i32⟩) main_call1_v9) (TRef.of (T := ⟨S16384x360x1, .i1⟩) main_call1_v10) (cmpi .sle) : HloOp τ sig (Elt F))
      = binary main_call1_v5 main_call1_v9 main_call1_v10 (cmpi .sle : (⟨S16384x360x1, .i32⟩ : BufTy).Contents (Elt F) → (⟨S16384x360x1, .i32⟩ : BufTy).Contents (Elt F) → (⟨S16384x360x1, .i1⟩ : BufTy).Contents (Elt F)) := rfl
theorem bare_main_call1_v11 :
    (TRef.binary (TRef.of (T := ⟨S16384x360x1, .i1⟩) main_call1_v7) (TRef.of (T := ⟨S16384x360x1, .i1⟩) main_call1_v10) (TRef.of (T := ⟨S16384x360x1, .i1⟩) main_call1_v11) andi : HloOp τ sig (Elt F))
      = binary main_call1_v7 main_call1_v10 main_call1_v11 (andi : (⟨S16384x360x1, .i1⟩ : BufTy).Contents (Elt F) → (⟨S16384x360x1, .i1⟩ : BufTy).Contents (Elt F) → (⟨S16384x360x1, .i1⟩ : BufTy).Contents (Elt F)) := rfl
theorem bare_main_call1_c_3 :
    (TRef.nullary (TRef.of (T := ⟨S_, .i1⟩) main_call1_c_3) (constantI S_ 1 1#1) : HloOp τ sig (Elt F))
      = nullary main_call1_c_3 (constantI S_ 1 1#1 : (⟨S_, .i1⟩ : BufTy).Contents (Elt F)) := rfl
theorem bare_fn_main_call1_v12 (f : (⟨S16384x360x1, .i1⟩ : BufTy).Contents (Elt F) → (⟨S_, .i1⟩ : BufTy).Contents (Elt F) → (⟨S16384x360, .i1⟩ : BufTy).Contents (Elt F)) :
    (TRef.binary (TRef.of (T := ⟨S16384x360x1, .i1⟩) main_call1_v11) (TRef.of (T := ⟨S_, .i1⟩) main_call1_c_3) (TRef.of (T := ⟨S16384x360, .i1⟩) main_call1_v12) f : HloOp τ sig (Elt F)) = binary main_call1_v11 main_call1_c_3 main_call1_v12 f := rfl
theorem bare_main_call1_v12 :
    (TRef.binary (TRef.of (T := ⟨S16384x360x1, .i1⟩) main_call1_v11) (TRef.of (T := ⟨S_, .i1⟩) main_call1_c_3) (TRef.of (T := ⟨S16384x360, .i1⟩) main_call1_v12) (fun x v => Host.reduce IntOp.andi x v reducesTo_S16384x360x1_S16384x360_d2 h_S_) : HloOp τ sig (Elt F))
      = binary main_call1_v11 main_call1_c_3 main_call1_v12 ((fun x v => Host.reduce IntOp.andi x v reducesTo_S16384x360x1_S16384x360_d2 h_S_) : (⟨S16384x360x1, .i1⟩ : BufTy).Contents (Elt F) → (⟨S_, .i1⟩ : BufTy).Contents (Elt F) → (⟨S16384x360, .i1⟩ : BufTy).Contents (Elt F)) := bare_fn_main_call1_v12 _
theorem bare_main_call1_v13 :
    (TRef.binary (TRef.of (T := ⟨S16384x4320, .f32⟩) main_arg1) (TRef.of (T := ⟨S16384x360x1, .i32⟩) main_call1_v5) (TRef.of (T := ⟨S16384x360, .f32⟩) main_call1_v13) (fun x i => Host.gather gather_S16384x4320_S16384x360x1_S16384x360_n_1_0_0_1_2_11 x i) : HloOp τ sig (Elt F))
      = binary main_arg1 main_call1_v5 main_call1_v13 ((fun x i => Host.gather gather_S16384x4320_S16384x360x1_S16384x360_n_1_0_0_1_2_11 x i) : (⟨S16384x4320, .f32⟩ : BufTy).Contents (Elt F) → (⟨S16384x360x1, .i32⟩ : BufTy).Contents (Elt F) → (⟨S16384x360, .f32⟩ : BufTy).Contents (Elt F)) := rfl
theorem bare_main_call1_cst :
    (TRef.nullary (TRef.of (T := ⟨S_, .f32⟩) main_call1_cst) (constant S_ .f32 0x7FC00000#32) : HloOp τ sig (Elt F))
      = nullary main_call1_cst (constant S_ .f32 0x7FC00000#32 : (⟨S_, .f32⟩ : BufTy).Contents (Elt F)) := rfl
theorem bare_main_call1_v14 :
    (TRef.unary (TRef.of (T := ⟨S_, .f32⟩) main_call1_cst) (TRef.of (T := ⟨S16384x360, .f32⟩) main_call1_v14) (broadcastInDim S16384x360 ![] bcast_S_S16384x360) : HloOp τ sig (Elt F))
      = unary main_call1_cst main_call1_v14 (broadcastInDim S16384x360 ![] bcast_S_S16384x360 : (⟨S_, .f32⟩ : BufTy).Contents (Elt F) → (⟨S16384x360, .f32⟩ : BufTy).Contents (Elt F)) := rfl
theorem bare_main_v9 :
    (TRef.ternary (TRef.of (T := ⟨S16384x360, .i1⟩) main_call1_v12) (TRef.of (T := ⟨S16384x360, .f32⟩) main_call1_v13) (TRef.of (T := ⟨S16384x360, .f32⟩) main_call1_v14) (TRef.of (T := ⟨S16384x360, .f32⟩) main_v9) select : HloOp τ sig (Elt F))
      = ternary main_call1_v12 main_call1_v13 main_call1_v14 main_v9 (select : (⟨S16384x360, .i1⟩ : BufTy).Contents (Elt F) → (⟨S16384x360, .f32⟩ : BufTy).Contents (Elt F) → (⟨S16384x360, .f32⟩ : BufTy).Contents (Elt F) → (⟨S16384x360, .f32⟩ : BufTy).Contents (Elt F)) := rfl
theorem bare_main_call2_cst :
    (TRef.nullary (TRef.of (T := ⟨S_, .f32⟩) main_call2_cst) (constant S_ .f32 0xFF800000#32) : HloOp τ sig (Elt F))
      = nullary main_call2_cst (constant S_ .f32 0xFF800000#32 : (⟨S_, .f32⟩ : BufTy).Contents (Elt F)) := rfl
theorem bare_fn_main_call2_v0 (f : (⟨S16384x360, .f32⟩ : BufTy).Contents (Elt F) → (⟨S_, .f32⟩ : BufTy).Contents (Elt F) → (⟨S16384, .f32⟩ : BufTy).Contents (Elt F)) :
    (TRef.binary (TRef.of (T := ⟨S16384x360, .f32⟩) main_v14) (TRef.of (T := ⟨S_, .f32⟩) main_call2_cst) (TRef.of (T := ⟨S16384, .f32⟩) main_call2_v0) f : HloOp τ sig (Elt F)) = binary main_v14 main_call2_cst main_call2_v0 f := rfl
theorem bare_main_call2_v0 :
    (TRef.binary (TRef.of (T := ⟨S16384x360, .f32⟩) main_v14) (TRef.of (T := ⟨S_, .f32⟩) main_call2_cst) (TRef.of (T := ⟨S16384, .f32⟩) main_call2_v0) (fun x v => Host.reduce FloatOps.maximumf x v reducesTo_S16384x360_S16384_d1 h_S_) : HloOp τ sig (Elt F))
      = binary main_v14 main_call2_cst main_call2_v0 ((fun x v => Host.reduce FloatOps.maximumf x v reducesTo_S16384x360_S16384_d1 h_S_) : (⟨S16384x360, .f32⟩ : BufTy).Contents (Elt F) → (⟨S_, .f32⟩ : BufTy).Contents (Elt F) → (⟨S16384, .f32⟩ : BufTy).Contents (Elt F)) := bare_fn_main_call2_v0 _
theorem bare_main_call2_cst_0 :
    (TRef.nullary (TRef.of (T := ⟨S_, .f32⟩) main_call2_cst_0) (constant S_ .f32 0xFF800000#32) : HloOp τ sig (Elt F))
      = nullary main_call2_cst_0 (constant S_ .f32 0xFF800000#32 : (⟨S_, .f32⟩ : BufTy).Contents (Elt F)) := rfl
theorem bare_main_call2_v1 :
    (TRef.unary (TRef.of (T := ⟨S_, .f32⟩) main_call2_cst_0) (TRef.of (T := ⟨S16384, .f32⟩) main_call2_v1) (broadcastInDim S16384 ![] bcast_S_S16384) : HloOp τ sig (Elt F))
      = unary main_call2_cst_0 main_call2_v1 (broadcastInDim S16384 ![] bcast_S_S16384 : (⟨S_, .f32⟩ : BufTy).Contents (Elt F) → (⟨S16384, .f32⟩ : BufTy).Contents (Elt F)) := rfl
theorem bare_main_call2_v2 :
    (TRef.binary (TRef.of (T := ⟨S16384, .f32⟩) main_call2_v1) (TRef.of (T := ⟨S16384, .f32⟩) main_call2_v0) (TRef.of (T := ⟨S16384, .f32⟩) main_call2_v2) maximumf : HloOp τ sig (Elt F))
      = binary main_call2_v1 main_call2_v0 main_call2_v2 (maximumf : (⟨S16384, .f32⟩ : BufTy).Contents (Elt F) → (⟨S16384, .f32⟩ : BufTy).Contents (Elt F) → (⟨S16384, .f32⟩ : BufTy).Contents (Elt F)) := rfl
theorem bare_main_call2_v3 :
    (TRef.unary (TRef.of (T := ⟨S16384, .f32⟩) main_call2_v2) (TRef.of (T := ⟨S16384x1, .f32⟩) main_call2_v3) (broadcastInDim S16384x1 ![0] bcast_S16384_S16384x1_0) : HloOp τ sig (Elt F))
      = unary main_call2_v2 main_call2_v3 (broadcastInDim S16384x1 ![0] bcast_S16384_S16384x1_0 : (⟨S16384, .f32⟩ : BufTy).Contents (Elt F) → (⟨S16384x1, .f32⟩ : BufTy).Contents (Elt F)) := rfl
theorem bare_main_call2_v4 :
    (TRef.unary (TRef.of (T := ⟨S16384x1, .f32⟩) main_call2_v3) (TRef.of (T := ⟨S16384x360, .f32⟩) main_call2_v4) (broadcastInDim S16384x360 ![0, 1] bcast_S16384x1_S16384x360_0_1) : HloOp τ sig (Elt F))
      = unary main_call2_v3 main_call2_v4 (broadcastInDim S16384x360 ![0, 1] bcast_S16384x1_S16384x360_0_1 : (⟨S16384x1, .f32⟩ : BufTy).Contents (Elt F) → (⟨S16384x360, .f32⟩ : BufTy).Contents (Elt F)) := rfl
theorem bare_main_call2_v5 :
    (TRef.binary (TRef.of (T := ⟨S16384x360, .f32⟩) main_v14) (TRef.of (T := ⟨S16384x360, .f32⟩) main_call2_v4) (TRef.of (T := ⟨S16384x360, .f32⟩) main_call2_v5) subf : HloOp τ sig (Elt F))
      = binary main_v14 main_call2_v4 main_call2_v5 (subf : (⟨S16384x360, .f32⟩ : BufTy).Contents (Elt F) → (⟨S16384x360, .f32⟩ : BufTy).Contents (Elt F) → (⟨S16384x360, .f32⟩ : BufTy).Contents (Elt F)) := rfl
theorem bare_main_call2_v6 :
    (TRef.unary (TRef.of (T := ⟨S16384x360, .f32⟩) main_call2_v5) (TRef.of (T := ⟨S16384x360, .f32⟩) main_call2_v6) Host.exp : HloOp τ sig (Elt F))
      = unary main_call2_v5 main_call2_v6 (Host.exp : (⟨S16384x360, .f32⟩ : BufTy).Contents (Elt F) → (⟨S16384x360, .f32⟩ : BufTy).Contents (Elt F)) := rfl
theorem bare_main_call2_cst_1 :
    (TRef.nullary (TRef.of (T := ⟨S_, .f32⟩) main_call2_cst_1) (constant S_ .f32 0x00000000#32) : HloOp τ sig (Elt F))
      = nullary main_call2_cst_1 (constant S_ .f32 0x00000000#32 : (⟨S_, .f32⟩ : BufTy).Contents (Elt F)) := rfl
theorem bare_main_call2_v7 :
    (TRef.binary (TRef.of (T := ⟨S16384x360, .f32⟩) main_call2_v6) (TRef.of (T := ⟨S_, .f32⟩) main_call2_cst_1) (TRef.of (T := ⟨S16384, .f32⟩) main_call2_v7) (fun x v => Host.reduceAdd x v reducesTo_S16384x360_S16384_d1 h_S_) : HloOp τ sig (Elt F))
      = binary main_call2_v6 main_call2_cst_1 main_call2_v7 ((fun x v => Host.reduceAdd x v reducesTo_S16384x360_S16384_d1 h_S_) : (⟨S16384x360, .f32⟩ : BufTy).Contents (Elt F) → (⟨S_, .f32⟩ : BufTy).Contents (Elt F) → (⟨S16384, .f32⟩ : BufTy).Contents (Elt F)) := rfl
theorem bare_main_call2_v8 :
    (TRef.unary (TRef.of (T := ⟨S16384, .f32⟩) main_call2_v7) (TRef.of (T := ⟨S16384x1, .f32⟩) main_call2_v8) (broadcastInDim S16384x1 ![0] bcast_S16384_S16384x1_0) : HloOp τ sig (Elt F))
      = unary main_call2_v7 main_call2_v8 (broadcastInDim S16384x1 ![0] bcast_S16384_S16384x1_0 : (⟨S16384, .f32⟩ : BufTy).Contents (Elt F) → (⟨S16384x1, .f32⟩ : BufTy).Contents (Elt F)) := rfl
theorem bare_main_call2_v9 :
    (TRef.unary (TRef.of (T := ⟨S16384x1, .f32⟩) main_call2_v8) (TRef.of (T := ⟨S16384x1, .f32⟩) main_call2_v9) Host.log : HloOp τ sig (Elt F))
      = unary main_call2_v8 main_call2_v9 (Host.log : (⟨S16384x1, .f32⟩ : BufTy).Contents (Elt F) → (⟨S16384x1, .f32⟩ : BufTy).Contents (Elt F)) := rfl
theorem bare_main_call2_v10 :
    (TRef.unary (TRef.of (T := ⟨S16384x1, .f32⟩) main_call2_v9) (TRef.of (T := ⟨S16384x360, .f32⟩) main_call2_v10) (broadcastInDim S16384x360 ![0, 1] bcast_S16384x1_S16384x360_0_1) : HloOp τ sig (Elt F))
      = unary main_call2_v9 main_call2_v10 (broadcastInDim S16384x360 ![0, 1] bcast_S16384x1_S16384x360_0_1 : (⟨S16384x1, .f32⟩ : BufTy).Contents (Elt F) → (⟨S16384x360, .f32⟩ : BufTy).Contents (Elt F)) := rfl
theorem bare_main_v15 :
    (TRef.binary (TRef.of (T := ⟨S16384x360, .f32⟩) main_call2_v5) (TRef.of (T := ⟨S16384x360, .f32⟩) main_call2_v10) (TRef.of (T := ⟨S16384x360, .f32⟩) main_v15) subf : HloOp τ sig (Elt F))
      = binary main_call2_v5 main_call2_v10 main_v15 (subf : (⟨S16384x360, .f32⟩ : BufTy).Contents (Elt F) → (⟨S16384x360, .f32⟩ : BufTy).Contents (Elt F) → (⟨S16384x360, .f32⟩ : BufTy).Contents (Elt F)) := rfl

/-- Lists are equal entry by entry. -/
theorem cons_congr {α : Type} {a b : α} {s t : List α} (h : a = b) (ht : s = t) : a :: s = b :: t := by rw [h, ht]

/-- The program's operations are the six stretches in a row (an inlined callee's operations read at the bare references). -/
theorem ops_split : (Cert.ReferenceIdeal.ValueP.ops : List (HloOp τ sig (Elt F))) = cA ++ (cB ++ (cC ++ (cD ++ (cE ++ cF)))) := by
  unfold cA cB cC cD cE cF
  simp only [List.cons_append, List.nil_append]
  exact cons_congr rfl
    (cons_congr rfl
    (cons_congr rfl
    (cons_congr rfl
    (cons_congr rfl
    (cons_congr rfl
    (cons_congr rfl
    (cons_congr rfl
    (cons_congr rfl
    (cons_congr bare_main_call0_c
    (cons_congr bare_main_call0_v0
    (cons_congr bare_main_call0_v1
    (cons_congr bare_main_call0_c_0
    (cons_congr bare_main_call0_v2
    (cons_congr bare_main_call0_v3
    (cons_congr bare_main_call0_v4
    (cons_congr bare_main_call0_v5
    (cons_congr bare_main_call0_c_1
    (cons_congr bare_main_call0_c_2
    (cons_congr bare_main_call0_v6
    (cons_congr bare_main_call0_v7
    (cons_congr bare_main_call0_v8
    (cons_congr bare_main_call0_v9
    (cons_congr bare_main_call0_v10
    (cons_congr bare_main_call0_v11
    (cons_congr bare_main_call0_c_3
    (cons_congr bare_main_call0_v12
    (cons_congr bare_main_call0_v13
    (cons_congr bare_main_call0_cst
    (cons_congr bare_main_call0_v14
    (cons_congr bare_main_v8
    (cons_congr bare_main_call1_c
    (cons_congr bare_main_call1_v0
    (cons_congr bare_main_call1_v1
    (cons_congr bare_main_call1_c_0
    (cons_congr bare_main_call1_v2
    (cons_congr bare_main_call1_v3
    (cons_congr bare_main_call1_v4
    (cons_congr bare_main_call1_v5
    (cons_congr bare_main_call1_c_1
    (cons_congr bare_main_call1_c_2
    (cons_congr bare_main_call1_v6
    (cons_congr bare_main_call1_v7
    (cons_congr bare_main_call1_v8
    (cons_congr bare_main_call1_v9
    (cons_congr bare_main_call1_v10
    (cons_congr bare_main_call1_v11
    (cons_congr bare_main_call1_c_3
    (cons_congr bare_main_call1_v12
    (cons_congr bare_main_call1_v13
    (cons_congr bare_main_call1_cst
    (cons_congr bare_main_call1_v14
    (cons_congr bare_main_v9
    (cons_congr rfl
    (cons_congr rfl
    (cons_congr rfl
    (cons_congr rfl
    (cons_congr rfl
    (cons_congr rfl
    (cons_congr bare_main_call2_cst
    (cons_congr bare_main_call2_v0
    (cons_congr bare_main_call2_cst_0
    (cons_congr bare_main_call2_v1
    (cons_congr bare_main_call2_v2
    (cons_congr bare_main_call2_v3
    (cons_congr bare_main_call2_v4
    (cons_congr bare_main_call2_v5
    (cons_congr bare_main_call2_v6
    (cons_congr bare_main_call2_cst_1
    (cons_congr bare_main_call2_v7
    (cons_congr bare_main_call2_v8
    (cons_congr bare_main_call2_v9
    (cons_congr bare_main_call2_v10
    (cons_congr bare_main_v15
    (cons_congr rfl
    (cons_congr rfl
    (cons_congr rfl
    (cons_congr rfl
    (cons_congr rfl (rfl)))))))))))))))))))))))))))))))))))))))))))))))))))))))))))))))))))))))))))))))

/-- The contents after the whole line are those after the stretches, one after the other. -/
theorem after_ops (M : Valuation τ sig (Elt F)) :
    StableHlo.after (Cert.ReferenceIdeal.ValueP.ops (F := F)) M
      = StableHlo.after cF (StableHlo.after cE (StableHlo.after cD (StableHlo.after cC (StableHlo.after cB (StableHlo.after cA M))))) := by
  rw [ops_split, StableHlo.after_append, StableHlo.after_append, StableHlo.after_append, StableHlo.after_append, StableHlo.after_append]

/-! ## Each stretch: its output from its inputs, and the arrays it leaves alone -/

/-- The index array from the labels. -/
theorem stepA (V : Valuation τ sig (Elt F)) :
    StableHlo.after cA V (Proc.devRef .tc main_v7) = ReadP.val_main_v7 (F := F) (V (Proc.devRef .tc main_arg2)) := by
  unfold cA
  after_results_simp
  rfl

/-- The index array's stretch writes neither argument array. -/
theorem keptA_arg0 (V : Valuation τ sig (Elt F)) :
    StableHlo.after cA V (Proc.devRef .tc main_arg0) = V (Proc.devRef .tc main_arg0) := by
  unfold cA
  after_results_simp
theorem keptA_arg1 (V : Valuation τ sig (Elt F)) :
    StableHlo.after cA V (Proc.devRef .tc main_arg1) = V (Proc.devRef .tc main_arg1) := by
  unfold cA
  after_results_simp

/-- The first gather, from the index array and the first argument. -/
theorem stepB (V : Valuation τ sig (Elt F)) (x0 : (⟨S16384x4320, .f32⟩ : BufTy).Contents (Elt F)) (x2 : (⟨S16384, .i32⟩ : BufTy).Contents (Elt F))
    (h7 : V (Proc.devRef .tc main_v7) = ReadP.val_main_v7 (F := F) x2) (h0 : V (Proc.devRef .tc main_arg0) = x0) :
    StableHlo.after cB V (Proc.devRef .tc main_v8) = ReadP.val_main_v8 (F := F) x0 x2 := by
  unfold cB
  after_results_simp
  rw [h7, h0]
  rfl

/-- The first gather writes neither the index array nor the second argument. -/
theorem keptB_v7 (V : Valuation τ sig (Elt F)) :
    StableHlo.after cB V (Proc.devRef .tc main_v7) = V (Proc.devRef .tc main_v7) := by
  unfold cB
  after_results_simp
theorem keptB_arg1 (V : Valuation τ sig (Elt F)) :
    StableHlo.after cB V (Proc.devRef .tc main_arg1) = V (Proc.devRef .tc main_arg1) := by
  unfold cB
  after_results_simp

/-- The second gather, from the index array and the second argument. -/
theorem stepC (V : Valuation τ sig (Elt F)) (x1 : (⟨S16384x4320, .f32⟩ : BufTy).Contents (Elt F)) (x2 : (⟨S16384, .i32⟩ : BufTy).Contents (Elt F))
    (h7 : V (Proc.devRef .tc main_v7) = ReadP.val_main_v7 (F := F) x2) (h1 : V (Proc.devRef .tc main_arg1) = x1) :
    StableHlo.after cC V (Proc.devRef .tc main_v9) = ReadP.val_main_v9 (F := F) x1 x2 := by
  unfold cC
  after_results_simp
  rw [h7, h1]
  rfl

/-- The second gather does not write the first gather's result. -/
theorem keptC_v8 (V : Valuation τ sig (Elt F)) :
    StableHlo.after cC V (Proc.devRef .tc main_v8) = V (Proc.devRef .tc main_v8) := by
  unfold cC
  after_results_simp

/-- The normalization by the row's sum of absolute values, from the first gathered array. -/
theorem stepD (V : Valuation τ sig (Elt F)) (x0 : (⟨S16384x4320, .f32⟩ : BufTy).Contents (Elt F)) (x2 : (⟨S16384, .i32⟩ : BufTy).Contents (Elt F))
    (h8 : V (Proc.devRef .tc main_v8) = ReadP.val_main_v8 (F := F) x0 x2) :
    StableHlo.after cD V (Proc.devRef .tc main_v14) = ReadP.val_main_v14 (F := F) x0 x2 := by
  unfold cD
  after_results_simp
  rw [h8]
  rfl

/-- The normalization does not write the second gathered array. -/
theorem keptD_v9 (V : Valuation τ sig (Elt F)) :
    StableHlo.after cD V (Proc.devRef .tc main_v9) = V (Proc.devRef .tc main_v9) := by
  unfold cD
  after_results_simp

/-- The log-softmax of the normalized array. -/
theorem stepE (V : Valuation τ sig (Elt F)) (x0 : (⟨S16384x4320, .f32⟩ : BufTy).Contents (Elt F)) (x2 : (⟨S16384, .i32⟩ : BufTy).Contents (Elt F))
    (h14 : V (Proc.devRef .tc main_v14) = ReadP.val_main_v14 (F := F) x0 x2) :
    StableHlo.after cE V (Proc.devRef .tc main_v15) = ReadP.val_main_v15 (F := F) x0 x2 := by
  unfold cE
  after_results_simp
  rw [h14]
  rfl

/-- The log-softmax does not write the second gathered array. -/
theorem keptE_v9 (V : Valuation τ sig (Elt F)) :
    StableHlo.after cE V (Proc.devRef .tc main_v9) = V (Proc.devRef .tc main_v9) := by
  unfold cE
  after_results_simp

/-- The negated total of the products, from the second gathered array and the log-softmax. -/
theorem stepF (V : Valuation τ sig (Elt F)) (x0 x1 : (⟨S16384x4320, .f32⟩ : BufTy).Contents (Elt F)) (x2 : (⟨S16384, .i32⟩ : BufTy).Contents (Elt F))
    (h9 : V (Proc.devRef .tc main_v9) = ReadP.val_main_v9 (F := F) x1 x2)
    (h15 : V (Proc.devRef .tc main_v15) = ReadP.val_main_v15 (F := F) x0 x2) :
    StableHlo.after cF V (Proc.devRef .tc main_v19) = ReadP.val_main_v19 (F := F) x0 x1 x2 := by
  unfold cF
  after_results_simp
  rw [h9, h15]
  rfl

/-! ## The whole line -/

/-- After the 79 operations, from any contents `M`, the result array holds the last stage's value of `M`'s three
    argument arrays. -/
theorem after_ops_result (M : Valuation τ sig (Elt F)) :
    StableHlo.after (Cert.ReferenceIdeal.ValueP.ops (F := F)) M (Proc.devRef .tc main_v19)
      = Cert.ReferenceIdeal.ReadP.val_main_v19 (F := F) (M (Proc.devRef .tc main_arg0)) (M (Proc.devRef .tc main_arg1)) (M (Proc.devRef .tc main_arg2)) := by
  rw [after_ops]
  have hA7 := stepA (F := F) M
  have hB7 := (keptB_v7 (F := F) _).trans hA7
  have hB8 := stepB (F := F) _ _ _ hA7 (keptA_arg0 M)
  have hC9 := stepC (F := F) _ _ _ hB7 ((keptB_arg1 _).trans (keptA_arg1 M))
  have hC8 := (keptC_v8 (F := F) _).trans hB8
  have hD14 := stepD (F := F) _ _ _ hC8
  have hD9 := (keptD_v9 (F := F) _).trans hC9
  have hE15 := stepE (F := F) _ _ _ hD14
  have hE9 := (keptE_v9 (F := F) _).trans hD9
  exact stepF (F := F) _ _ _ _ hE9 hE15

/-- On every device, for any float values, from any memory with zero counters: every weakly fair execution of @main
    terminates with the result array at the operations' composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = Cert.ReferenceIdeal.ValueP.res_main_v19 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans ((after_ops_result (F := F) (launchContents m c)).trans (Cert.ReferenceIdeal.ReadP.val_main_v19_eq m c).symm),
      (h c main_arg0).trans (by after_results_simp <;> rfl),
      (h c main_arg1).trans (by after_results_simp <;> rfl),
      (h c main_arg2).trans (by after_results_simp <;> rfl)⟩)
    (run_seq ValueP.scopedRefs_eq ValueP.scopedSems_eq defs main (fun _ => ValueP.ops) ValueP.main_eq (fun _ => ValueP.ops_sub) m ρ)

end Cert.ReferenceIdeal.RunHand

end
-- ==== Proof.LossSpec.lean ====
/-
  The loss both programs compute, as plain functions on the extended reals.

  A row's window `pw : Fin 360 → EReal` is divided by its L1 norm, the row maximum is subtracted, and the
  log-sum-exp of the shifted row is taken; the row's contribution is the sum over the window of
  `lw p · (shifted p − lse)`. One arrangement takes that sum term by term; the other splits it as
  `Σ lw p · shifted p − lse · Σ lw p`. The whole loss is the negated sum over the 16384 rows, which the
  second arrangement takes block by block: 64 blocks of 256 rows.
-/
import Idealize.ShloMosaic.PureOps.Ideal
import Idealize.ShloMosaic.Lib.ValueIdx

noncomputable section

open scoped BigOperators

namespace Cert.Loss

open Idealize.ShloMosaic Idealize.ShloMosaic.ValueIdx

/-- The L1 norm of a window: the sum of `|pw p| = max (pw p) (−pw p)`. -/
def l1 (pw : Fin 360 → EReal) : EReal := ∑ p, max (pw p) (-(pw p))

/-- The window divided by its L1 norm. -/
def scaled (pw : Fin 360 → EReal) (p : Fin 360) : EReal := Ideal.div (pw p) (l1 pw)

/-- The maximum of the scaled window (a fold of `max` from `−∞`). -/
def top (pw : Fin 360 → EReal) : EReal := (Finset.univ : Finset (Fin 360)).fold max ⊥ (scaled pw)

/-- The scaled window minus its maximum. -/
def shifted (pw : Fin 360 → EReal) (p : Fin 360) : EReal := scaled pw p - top pw

/-- The log of the sum of the exponentials of the shifted window. -/
def lse (pw : Fin 360 → EReal) : EReal := Ideal.log (∑ p, Ideal.exp (shifted pw p))

/-- One entry's contribution: the label times the log-softmax of the scaled window. -/
def term (pw lw : Fin 360 → EReal) (p : Fin 360) : EReal := lw p * (shifted pw p - lse pw)

/-- A row's contribution with the log-sum-exp factored out of the sum. -/
def rowKer (pw lw : Fin 360 → EReal) : EReal := (∑ p, lw p * shifted pw p) - lse pw * ∑ p, lw p

/-- Row `r` of block `t`: 64 blocks of 256 rows. -/
def row (t : Fin 64) (r : Fin 256) : Fin 16384 := ⟨256 * t.val + r.val, by omega⟩

/-- Column `p` of class `k`'s window: 12 windows of 360 columns. -/
def col (k : Fin 12) (p : Fin 360) : Fin 4320 := ⟨k.val * 360 + p.val, by omega⟩

/-- Row `b`'s window of the array `x`, the window its class `k b` selects. -/
def win (x : (⟨2, ![16384, 4320]⟩ : Shape).Idx → EReal) (k : Fin 16384 → Fin 12) (b : Fin 16384) (p : Fin 360) : EReal :=
  x (ix2 b (col (k b) p))

/-- The loss summed entry by entry over all rows, negated. -/
def refTotal (PW LW : Fin 16384 → Fin 360 → EReal) : EReal := -(∑ b : Fin 16384, ∑ p : Fin 360, term (PW b) (LW b) p)

/-- The loss summed block by block, each block's negated sum of its rows' factored contributions. -/
def kerTotal (PW LW : Fin 16384 → Fin 360 → EReal) : EReal :=
  ∑ t : Fin 64, -(∑ r : Fin 256, rowKer (PW (row t r)) (LW (row t r)))

end Cert.Loss

end
-- ==== Proof.LibGatherLast.lean ====
/-
  A gather along the last axis of a rank-2 array, read at an index.

  What `take_along_axis(x, idx, axis = 1)` of an array `x : [B, N]` at an integer array `idx : [B, P]` lowers to:
  `stablehlo.gather` with axis 0 a batching axis on both sides, operand axis 1 collapsed and named by the start index
  map, the index vector on a third unit axis of the start indices, and slices of one element. Result element `(b, p)`
  is the operand at `(b, j)` where `j` is the start index `idx[b, p, 0]` read as a signed integer and clamped into
  `[0, N − 1]`, as the gather clamps every start index so that the slice fits.
-/
import Idealize.ShloMosaic.Lib.ValueIdx

namespace Cert.GatherLast

open Idealize.ShloMosaic Idealize.ShloMosaic.ValueIdx

/-- Those dimension numbers for an operand `[B, N]`, start indices `[B, P, 1]` and result `[B, P]`; their conditions
    `wf` are decided on a program's literal shapes. -/
abbrev lastDims (B N P : Nat)
    (wf : GatherDims.WF ⟨2, ![B, N]⟩ ⟨3, ![B, P, 1]⟩ ⟨2, ![B, P]⟩ [] [1] [0] [1] [0] 2 ![1, 1]) :
    GatherDims ⟨2, ![B, N]⟩ ⟨3, ![B, P, 1]⟩ ⟨2, ![B, P]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, p)`: the operand at `(b, j)`, `j` the start index `idx[b, p, 0]` read signed and clamped
    into `[0, N − 1]`. -/
theorem gather_last_apply {α : Type} {B N P w : Nat} (hN : 0 < N)
    (wf : GatherDims.WF ⟨2, ![B, N]⟩ ⟨3, ![B, P, 1]⟩ ⟨2, ![B, P]⟩ [] [1] [0] [1] [0] 2 ![1, 1])
    (x : (⟨2, ![B, N]⟩ : Shape).Idx → α) (idx : IVec ⟨3, ![B, P, 1]⟩ w) (b : Fin B) (p : Fin P) :
    Host.gather (lastDims B N P wf) x idx (ix2 b p)
      = x (ix2 b ⟨min (idx (ix3 b p (0 : Fin 1))).toInt.toNat (N - 1), by omega⟩) := by
  show x ((lastDims B N P wf).operandIdx (ix2 b p) idx) = _
  refine congrArg x (funext fun a => Fin.ext ?_)
  show (lastDims B N P wf).start (ix2 b p) idx a + (lastDims B N P wf).batchCoord (ix2 b p) a
    + (lastDims B N P wf).offCoord (ix2 b p) a = _
  match a with
  | ⟨0, h0⟩ =>
    -- the batching axis: no start index, no offset, the result's own first coordinate
    have hb : (⟨0, h0⟩ : Fin 2) ∈ (lastDims B N P wf).operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    -- the indexed, collapsed axis: the clamped start index alone
    have hm : (⟨1, h1⟩ : Fin 2) ∈ (lastDims B N P wf).startIndexMap := List.mem_singleton.mpr rfl
    rw [GatherDims.batchCoord_eq_zero _ _ _ (GatherDims.sim_disjoint _ _ hm),
      GatherDims.offCoord_eq_zero _ _ _ (fun h => ((GatherDims.mem_sKept _ _).mp h).1 (List.mem_singleton.mpr rfl))]
    simp only [Nat.add_zero]
    unfold GatherDims.start
    rw [dif_pos hm]
    have hsi : (lastDims B N P wf).siIdx (ix2 b p) ⟨List.idxOf (⟨1, h1⟩ : Fin 2) (lastDims B N P wf).startIndexMap,
        List.idxOf_lt_length_iff.2 hm⟩ = ix3 b p (0 : Fin 1) := by
      funext c; refine Fin.ext ?_
      match c with
      | ⟨0, _⟩ => rfl
      | ⟨1, _⟩ => rfl
      | ⟨2, _⟩ => rfl
    rw [hsi]
    rfl

end Cert.GatherLast
-- ==== Proof.RefValue.lean ====
/-
  The reference program's result, read as the loss of LossSpec.

  The program's operations are read at an index, outermost first. The index array it builds is
  `idx[b, p] = x2[b] · 360 + p`; with `x2[b] = k b < 12` this is a column of the `[16384, 4320]` arrays, so the
  two gathers return row `b`'s window of each array. On the first array's window the program takes the L1 norm,
  divides by it, subtracts the row maximum, and takes the log-sum-exp; it multiplies the log-softmax entry by the
  second array's window entry, sums over all rows and entries, and negates.
-/
import proofs.«407616_j38285338477081_3_alg».proof.Proof.RefRead
import proofs.«407616_j38285338477081_3_alg».proof.Proof.LossSpec
import proofs.«407616_j38285338477081_3_alg».proof.Proof.LibGatherLast
import Idealize.ShloMosaic.PureOps.Ideal.Laws
import Idealize.ShloMosaic.Lib.ValueLayout

noncomputable section

open scoped BigOperators

namespace Cert.ReferenceIdeal.RefValue

open Idealize.ShloMosaic Idealize.ShloMosaic.ValueIdx Cert.ReferenceIdeal Cert.ReferenceIdeal.Gen Cert.Loss

open Cert.ReferenceIdeal.ReadP

/-! ## Words: the flat column index `k · 360 + p` as a 32-bit word -/

/-- A natural number below `2³¹` read back signed from its 32-bit word is itself. -/
theorem toInt_ofNat_small (n : Nat) (h : n < 2147483648) : (BitVec.ofNat 32 n).toInt = (n : Int) := by
  rw [BitVec.toInt_eq_toNat_cond, BitVec.toNat_ofNat, Nat.mod_eq_of_lt (by omega)]
  split <;> omega

/-- The word arithmetic `k · 360 + p` is the word of the number `k · 360 + p`. -/
theorem word_eq (k p : Nat) :
    IntOp.addi (IntOp.muli (BitVec.ofNat 32 k) 360#32) (BitVec.ofNat 32 p) = BitVec.ofNat 32 (k * 360 + p) := by
  apply BitVec.eq_of_toNat_eq
  show (BitVec.ofNat 32 k * 360#32 + BitVec.ofNat 32 p).toNat = _
  simp only [BitVec.toNat_add, BitVec.toNat_mul, BitVec.toNat_ofNat]
  omega

/-- A small natural number's word is not negative … -/
theorem cmpi_slt_zero (n : Nat) (h : n < 2147483648) : IntOp.cmpi .slt (BitVec.ofNat 32 n) 0#32 = 0#1 := by
  show BitVec.ofBool ((BitVec.ofNat 32 n).slt 0#32) = 0#1
  have e : (BitVec.ofNat 32 n).slt 0#32 = false := by
    unfold BitVec.slt
    rw [toInt_ofNat_small n h]
    have h0 : (0#32 : BitVec 32).toInt = 0 := by decide
    exact decide_eq_false (by omega)
  rw [e]; rfl

/-- … it is at least zero … -/
theorem cmpi_sge_zero (n : Nat) (h : n < 2147483648) : IntOp.cmpi .sge (BitVec.ofNat 32 n) 0#32 = 1#1 := by
  show BitVec.ofBool ((0#32 : BitVec 32).sle (BitVec.ofNat 32 n)) = 1#1
  have e : (0#32 : BitVec 32).sle (BitVec.ofNat 32 n) = true := by
    unfold BitVec.sle
    rw [toInt_ofNat_small n h]
    have h0 : (0#32 : BitVec 32).toInt = 0 := by decide
    exact decide_eq_true (by omega)
  rw [e]; rfl

/-- … and, when the number is at most 4319, at most the last column. -/
theorem cmpi_sle_4319 (n : Nat) (h : n ≤ 4319) : IntOp.cmpi .sle (BitVec.ofNat 32 n) 4319#32 = 1#1 := by
  show BitVec.ofBool ((BitVec.ofNat 32 n).sle 4319#32) = 1#1
  have e : (BitVec.ofNat 32 n).sle 4319#32 = true := by
    unfold BitVec.sle
    rw [toInt_ofNat_small n (by omega)]
    have h0 : (4319#32 : BitVec 32).toInt = 4319 := by decide
    exact decide_eq_true (by omega)
  rw [e]; rfl

/-- Clamping such a word into the column range leaves it alone. -/
theorem clamp_eq (n : Nat) (h : n ≤ 4319) : min (BitVec.ofNat 32 n).toInt.toNat (4320 - 1) = n := by
  rw [toInt_ofNat_small n (by omega)]
  omega

/-! ## The two folds: an `and` over a unit axis, and a row's maximum -/

local instance andi_comm : Std.Commutative (IntOp.andi (w := 1)) := ⟨fun a b => BitVec.and_comm a b⟩
local instance andi_assoc : Std.Associative (IntOp.andi (w := 1)) := ⟨fun a b c => BitVec.and_assoc a b c⟩

/-- A fold over a one-element index set is one application. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- An `and` over a unit axis is the one element there, with the initial value. -/
theorem reduce_and_unit (x : IVec S16384x360x1 1) (init : IVec S_ 1) (b : Fin 16384) (p : Fin 360) :
    Host.reduce IntOp.andi x init reducesTo_S16384x360x1_S16384x360_d2 h_S_ (ix2 b p)
      = IntOp.andi (x (ix3 b p (0 : Fin 1))) (init (Shape.Idx.first h_S_)) := by
  rw [Host.reduce_eq_fold_single IntOp.andi x init reducesTo_S16384x360x1_S16384x360_d2 (by decide) h_S_ (ix2 b p)]
  refine (fold_fin_one IntOp.andi _ _).trans ?_
  refine congrArg (fun z => IntOp.andi z _) ?_
  refine congrArg x (funext fun c => Fin.ext ?_)
  match c with
  | ⟨0, _⟩ => rfl
  | ⟨1, _⟩ => rfl
  | ⟨2, _⟩ => rfl

/-- A row's maximum is the fold of `max` along the row from the initial value. -/
theorem reduce_max_row (x : FVec Ideal S16384x360 .f32) (init : FVec Ideal S_ .f32) (b : Fin 16384) :
    Host.reduce (FloatOps.maximumf (F := Ideal) (φ := .f32)) x init reducesTo_S16384x360_S16384_d1 h_S_ (ix1 b)
      = (Finset.univ : Finset (Fin 360)).fold max (init (Shape.Idx.first h_S_)) (fun p => x (ix2 b p)) := by
  rw [Host.reduce_eq_fold_single (FloatOps.maximumf (F := Ideal) (φ := .f32)) x init reducesTo_S16384x360_S16384_d1
    (by decide) h_S_ (ix1 b)]
  show (Finset.univ : Finset (Fin 360)).fold max _ _ = _
  refine Finset.fold_congr (fun p _ => ?_)
  refine congrArg x (funext fun c => Fin.ext ?_)
  match c with
  | ⟨0, _⟩ => rfl
  | ⟨1, _⟩ => rfl

/-! ## The gathered windows

With `x2[b] = k b < 12`, the index array is `idx[b, p] = k b · 360 + p`, a column of the array: it is not negative,
so `take_along_axis` keeps it; it passes the range test; the gather's clamp leaves it alone; and the result is the
array's entry at column `k b · 360 + p` of row `b`, the `p`-th entry of row `b`'s window. The function is called
twice, on the two arrays; the two copies of its operations are read the same way. -/

section Windows
variable {x2 : IVec S16384 32} {k : Fin 16384 → Fin 12} (hk : ∀ b : Fin 16384, x2 (ix1 b) = BitVec.ofNat 32 (k b).val)
include hk

theorem v7_at (b : Fin 16384) (p : Fin 360) :
    val_main_v7 (F := Ideal) x2 (ix2 b p) = BitVec.ofNat 32 ((k b).val * 360 + p.val) := by
  rw [val_main_v7_apply, val_main_v5_apply, val_main_v2_apply, val_main_v0_apply, val_main_v1_apply, val_main_c_apply,
    val_main_v6_apply, val_main_v4_apply, val_main_v3_apply]
  have e : idx_main_v0 (idx_main_v5 (ix2 b p)) = ix1 b := by
    funext a; match a with | ⟨0, _⟩ => rfl
  rw [e, hk b]
  exact word_eq (k b).val p.val

theorem call0_v5_at (b : Fin 16384) (p : Fin 360) :
    val_main_call0_v5 (F := Ideal) x2 (ix3 b p (0 : Fin 1)) = BitVec.ofNat 32 ((k b).val * 360 + p.val) := by
  have hn : (k b).val * 360 + p.val < 4320 := by have := (k b).isLt; have := p.isLt; omega
  have e : idx_main_call0_v5 (ix3 b p (0 : Fin 1)) = ix2 b p := by
    funext a
    match a with
    | ⟨0, _⟩ => exact Fin.ext (by show ((b.val * 360 + p.val) * 1 + 0) / 360 = b.val; have := p.isLt; omega)
    | ⟨1, _⟩ => exact Fin.ext (by show ((b.val * 360 + p.val) * 1 + 0) % 360 = p.val; have := p.isLt; omega)
  rw [val_main_call0_v5_apply, e, val_main_call0_v4_apply, val_main_call0_v1_apply, val_main_call0_v0_apply,
    val_main_call0_c_apply, v7_at hk b p, cmpi_slt_zero ((k b).val * 360 + p.val) (by omega), select_zero]

theorem call0_v12_at (b : Fin 16384) (p : Fin 360) : val_main_call0_v12 (F := Ideal) x2 (ix2 b p) = 1#1 := by
  have hn : (k b).val * 360 + p.val < 4320 := by have := (k b).isLt; have := p.isLt; omega
  unfold val_main_call0_v12
  rw [reduce_and_unit, val_main_call0_v11_apply, val_main_call0_v7_apply, val_main_call0_v10_apply,
    val_main_call0_v6_apply, val_main_call0_c_2_apply, val_main_call0_v9_apply, val_main_call0_v8_apply,
    val_main_call0_c_1_apply, call0_v5_at hk b p, cmpi_sge_zero ((k b).val * 360 + p.val) (by omega),
    cmpi_sle_4319 ((k b).val * 360 + p.val) (by omega), val_main_call0_c_3_apply]
  decide

theorem call0_v13_at (x : FVec Ideal S16384x4320 .f32) (b : Fin 16384) (p : Fin 360) :
    val_main_call0_v13 (F := Ideal) x x2 (ix2 b p) = win x k b p := by
  have hn : (k b).val * 360 + p.val < 4320 := by have := (k b).isLt; have := p.isLt; omega
  unfold val_main_call0_v13
  show Host.gather (Cert.GatherLast.lastDims 16384 4320 360 gather_S16384x4320_S16384x360x1_S16384x360_n_1_0_0_1_2_11_wf) x
    (val_main_call0_v5 (F := Ideal) x2) (ix2 b p) = _
  rw [Cert.GatherLast.gather_last_apply (B := 16384) (N := 4320) (P := 360) (by decide) _ x _ b p]
  unfold win
  refine congrArg x (congrArg (ix2 b) (Fin.ext ?_))
  show min (val_main_call0_v5 (F := Ideal) x2 (ix3 b p (0 : Fin 1))).toInt.toNat (4320 - 1) = (k b).val * 360 + p.val
  rw [call0_v5_at hk b p]
  exact clamp_eq _ (by omega)

/-- Row `b`'s gathered entries are its window. -/
theorem v8_at (x : FVec Ideal S16384x4320 .f32) (b : Fin 16384) (p : Fin 360) :
    val_main_v8 (F := Ideal) x x2 (ix2 b p) = win x k b p := by
  rw [val_main_v8_apply, call0_v12_at hk b p, select_one, call0_v13_at hk x b p]

theorem call1_v5_at (b : Fin 16384) (p : Fin 360) :
    val_main_call1_v5 (F := Ideal) x2 (ix3 b p (0 : Fin 1)) = BitVec.ofNat 32 ((k b).val * 360 + p.val) := by
  have hn : (k b).val * 360 + p.val < 4320 := by have := (k b).isLt; have := p.isLt; omega
  have e : idx_main_call1_v5 (ix3 b p (0 : Fin 1)) = ix2 b p := by
    funext a
    match a with
    | ⟨0, _⟩ => exact Fin.ext (by show ((b.val * 360 + p.val) * 1 + 0) / 360 = b.val; have := p.isLt; omega)
    | ⟨1, _⟩ => exact Fin.ext (by show ((b.val * 360 + p.val) * 1 + 0) % 360 = p.val; have := p.isLt; omega)
  rw [val_main_call1_v5_apply, e, val_main_call1_v4_apply, val_main_call1_v1_apply, val_main_call1_v0_apply,
    val_main_call1_c_apply, v7_at hk b p, cmpi_slt_zero ((k b).val * 360 + p.val) (by omega), select_zero]

theorem call1_v12_at (b : Fin 16384) (p : Fin 360) : val_main_call1_v12 (F := Ideal) x2 (ix2 b p) = 1#1 := by
  have hn : (k b).val * 360 + p.val < 4320 := by have := (k b).isLt; have := p.isLt; omega
  unfold val_main_call1_v12
  rw [reduce_and_unit, val_main_call1_v11_apply, val_main_call1_v7_apply, val_main_call1_v10_apply,
    val_main_call1_v6_apply, val_main_call1_c_2_apply, val_main_call1_v9_apply, val_main_call1_v8_apply,
    val_main_call1_c_1_apply, call1_v5_at hk b p, cmpi_sge_zero ((k b).val * 360 + p.val) (by omega),
    cmpi_sle_4319 ((k b).val * 360 + p.val) (by omega), val_main_call1_c_3_apply]
  decide

theorem call1_v13_at (x : FVec Ideal S16384x4320 .f32) (b : Fin 16384) (p : Fin 360) :
    val_main_call1_v13 (F := Ideal) x x2 (ix2 b p) = win x k b p := by
  have hn : (k b).val * 360 + p.val < 4320 := by have := (k b).isLt; have := p.isLt; omega
  unfold val_main_call1_v13
  show Host.gather (Cert.GatherLast.lastDims 16384 4320 360 gather_S16384x4320_S16384x360x1_S16384x360_n_1_0_0_1_2_11_wf) x
    (val_main_call1_v5 (F := Ideal) x2) (ix2 b p) = _
  rw [Cert.GatherLast.gather_last_apply (B := 16384) (N := 4320) (P := 360) (by decide) _ x _ b p]
  unfold win
  refine congrArg x (congrArg (ix2 b) (Fin.ext ?_))
  show min (val_main_call1_v5 (F := Ideal) x2 (ix3 b p (0 : Fin 1))).toInt.toNat (4320 - 1) = (k b).val * 360 + p.val
  rw [call1_v5_at hk b p]
  exact clamp_eq _ (by omega)

/-- Row `b`'s gathered entries are its window. -/
theorem v9_at (x : FVec Ideal S16384x4320 .f32) (b : Fin 16384) (p : Fin 360) :
    val_main_v9 (F := Ideal) x x2 (ix2 b p) = win x k b p := by
  rw [val_main_v9_apply, call1_v12_at hk b p, select_one, call1_v13_at hk x b p]

/-! ## The row's loss, operation by operation -/

theorem v10_at (x : FVec Ideal S16384x4320 .f32) (b : Fin 16384) (p : Fin 360) :
    val_main_v10 (F := Ideal) x x2 (ix2 b p) = max (win x k b p) (-(win x k b p)) := by
  rw [val_main_v10_apply, v8_at hk x b p, Ideal.hostAbsf_def, Ideal.absf_def]

theorem v11_at (x : FVec Ideal S16384x4320 .f32) (b : Fin 16384) :
    val_main_v11 (F := Ideal) x x2 (ix1 b) = l1 (win x k b) := by
  rw [val_main_v11_apply, val_main_cst_apply, Ideal.ofBits_def, Ideal.ofBits_zero_f32, zero_add]
  unfold l1
  refine Finset.sum_congr rfl (fun p _ => ?_)
  have e : idx_main_v11 (ix1 b) p = ix2 b p := by
    funext a; match a with | ⟨0, _⟩ => rfl | ⟨1, _⟩ => rfl
  rw [e, v10_at hk x b p]

theorem v14_at (x : FVec Ideal S16384x4320 .f32) (b : Fin 16384) (p : Fin 360) :
    val_main_v14 (F := Ideal) x x2 (ix2 b p) = scaled (win x k b) p := by
  rw [val_main_v14_apply, val_main_v13_apply, val_main_v12_apply]
  have e : idx_main_v12 (idx_main_v13 (ix2 b p)) = ix1 b := by
    funext a; match a with | ⟨0, _⟩ => rfl
  rw [e, v11_at hk x b, v8_at hk x b p, Ideal.hostDivf_def]
  rfl

theorem call2_v2_at (x : FVec Ideal S16384x4320 .f32) (b : Fin 16384) :
    val_main_call2_v2 (F := Ideal) x x2 (ix1 b) = top (win x k b) := by
  have hbot : Ideal.ofBits .f32 0xFF800000#32 = ⊥ := by simp [Ideal.ofBits, Ideal.ieee]
  rw [val_main_call2_v2_apply, val_main_call2_v1_apply, val_main_call2_cst_0_apply]
  unfold val_main_call2_v0
  rw [reduce_max_row, val_main_call2_cst_apply, Ideal.maximumf_def, Ideal.ofBits_def, hbot, max_eq_right bot_le]
  unfold top
  refine Finset.fold_congr (fun p _ => ?_)
  exact v14_at hk x b p

theorem call2_v5_at (x : FVec Ideal S16384x4320 .f32) (b : Fin 16384) (p : Fin 360) :
    val_main_call2_v5 (F := Ideal) x x2 (ix2 b p) = shifted (win x k b) p := by
  rw [val_main_call2_v5_apply, val_main_call2_v4_apply, val_main_call2_v3_apply]
  have e : idx_main_call2_v3 (idx_main_call2_v4 (ix2 b p)) = ix1 b := by
    funext a; match a with | ⟨0, _⟩ => rfl
  rw [e, call2_v2_at hk x b, v14_at hk x b p, Ideal.subf_def]
  rfl

theorem call2_v7_at (x : FVec Ideal S16384x4320 .f32) (b : Fin 16384) :
    val_main_call2_v7 (F := Ideal) x x2 (ix1 b) = ∑ p, Ideal.exp (shifted (win x k b) p) := by
  rw [val_main_call2_v7_apply, val_main_call2_cst_1_apply, Ideal.ofBits_def, Ideal.ofBits_zero_f32, zero_add]
  refine Finset.sum_congr rfl (fun p _ => ?_)
  have e : idx_main_call2_v7 (ix1 b) p = ix2 b p := by
    funext a; match a with | ⟨0, _⟩ => rfl | ⟨1, _⟩ => rfl
  rw [e, val_main_call2_v6_apply, call2_v5_at hk x b p, Ideal.hostUnary_exp_def]

theorem call2_v10_at (x : FVec Ideal S16384x4320 .f32) (b : Fin 16384) (p : Fin 360) :
    val_main_call2_v10 (F := Ideal) x x2 (ix2 b p) = lse (win x k b) := by
  rw [val_main_call2_v10_apply, val_main_call2_v9_apply, val_main_call2_v8_apply]
  have e : idx_main_call2_v8 (idx_main_call2_v10 (ix2 b p)) = ix1 b := by
    funext a; match a with | ⟨0, _⟩ => rfl
  rw [e, call2_v7_at hk x b, Ideal.hostUnary_log_def]
  rfl

/-- One entry of the product array is that entry's contribution to the loss. -/
theorem v16_at (x0 x1 : FVec Ideal S16384x4320 .f32) (b : Fin 16384) (p : Fin 360) :
    val_main_v16 (F := Ideal) x0 x1 x2 (ix2 b p) = term (win x0 k b) (win x1 k b) p := by
  rw [val_main_v16_apply, val_main_v15_apply, v9_at hk x1 b p, call2_v5_at hk x0 b p, call2_v10_at hk x0 b p,
    Ideal.mulf_def, Ideal.subf_def]
  rfl

end Windows

/-- The reference's result: the negated sum, over all rows and window entries, of the entries' contributions. -/
theorem ref_value (x0 x1 : FVec Ideal S16384x4320 .f32) (x2 : IVec S16384 32) (k : Fin 16384 → Fin 12)
    (hk : ∀ b : Fin 16384, x2 (ix1 b) = BitVec.ofNat 32 (k b).val) :
    Cert.ReferenceIdeal.ReadP.val_main_v19 (F := Ideal) x0 x1 x2 = fun _ => refTotal (win x0 k) (win x1 k) := by
  funext i
  unfold Cert.ReferenceIdeal.ReadP.val_main_v19 shapeCast
  rw [val_main_v18_apply, val_main_v17_apply, val_main_cst_0_apply, Ideal.ofBits_def, Ideal.ofBits_zero_f32, zero_add,
    Ideal.hostNegf_def, Ideal.negf_def, sum_idx2]
  unfold refTotal
  refine congrArg (fun z => -z) ?_
  refine Finset.sum_congr rfl (fun b _ => Finset.sum_congr rfl (fun p _ => ?_))
  exact v16_at hk x0 x1 b p

end Cert.ReferenceIdeal.RefValue

end
-- ==== Proof.PreFacts.lean ====
/-
  The printed precondition of the program, decoded.

  The precondition is the conjunction of five "for all" statements over the three input arrays: the absolute values of
  the first and of the second float array are below +∞ everywhere; every class word is, signed, at least 0 and below
  12; and in every row the sum over 360 columns of the absolute values of a gathered window is above 0, the gather
  reading row b at the start index (class word of b) · 360 + p computed in 32-bit words. Read on the extended reals
  this says: both float arrays are real everywhere; there is a class k b below 12 for every row b whose word is the
  class word; and the L1 norm of the window that class selects in row b of the first array is not zero. The start
  index k · 360 + p is at most 4319, so it neither wraps in 32 bits nor is moved by the gather's clamp.
-/
import proofs.«407616_j38285338477081_3_alg».proof.Pre_finite_inputs
import proofs.«407616_j38285338477081_3_alg».proof.Proof.LossSpec
import proofs.«407616_j38285338477081_3_alg».proof.Proof.LibGatherLast
import Idealize.ShloMosaic.Lib.ReduceAll
import Idealize.ShloMosaic.Lib.StableHlo.Predicate
import Idealize.ShloMosaic.PureOps.Ideal.Laws

noncomputable section

open scoped BigOperators

namespace Cert.PreFacts

open Idealize.ShloMosaic Idealize.ShloMosaic.ValueIdx Cert.Loss

variable [Cert.Pre_finite_inputs.Facts]

/-! ## Words and extended reals -/

/-- The f32 pattern with exponent all ones and fraction zero is the extended real +∞. -/
theorem ofBits_inf_f32 : Ideal.ofBits .f32 0x7F800000#32 = ⊤ := by simp [Ideal.ofBits, Ideal.ieee]

/-- An extended real whose absolute value max a (−a) is strictly below +∞ is a real number: at −∞ and at +∞ the
    maximum is +∞ itself. -/
theorem real_of_abs_lt_top (a : EReal) (h : Ideal.cmp .olt (max a (-a)) ⊤ = 1#1) : ∃ r : ℝ, a = (r : EReal) := by
  have hlt : max a (-a) < ⊤ := by
    simpa only [Ideal.cmp, StableHlo.Predicate.ofBool_eq_one_iff, decide_eq_true_eq] using h
  induction a using EReal.rec with
  | bot => simp at hlt
  | top => simp at hlt
  | coe r => exact ⟨r, rfl⟩

/-- A 32-bit word that is, signed, at least 0 and below 12 is the word of the natural number below 12 it denotes. -/
theorem word_of_range (w : BitVec 32) (h0 : (0#32 : BitVec 32).toInt ≤ w.toInt) (h1 : w.toInt < (12#32 : BitVec 32).toInt) :
    w.toInt.toNat < 12 ∧ w = BitVec.ofNat 32 w.toInt.toNat := by
  have e0 : (0#32 : BitVec 32).toInt = 0 := by decide
  have e12 : (12#32 : BitVec 32).toInt = 12 := by decide
  rw [e0] at h0; rw [e12] at h1
  have hlt := w.isLt
  have hc := BitVec.toInt_eq_toNat_cond w
  have ht : w.toInt = (w.toNat : Int) := by
    split at hc
    · exact hc
    · omega
  have hn : w.toInt.toNat = w.toNat := by omega
  refine ⟨by omega, ?_⟩
  apply BitVec.eq_of_toNat_eq
  rw [BitVec.toNat_ofNat, hn]
  exact (Nat.mod_eq_of_lt hlt).symm

/-- The start index of class k's window at column p: k · 360 + p in 32-bit words does not wrap, and reads signed as
    the natural number k · 360 + p. -/
theorem start_toNat (k p : Nat) (hk : k < 12) (hp : p < 360) :
    (IntOp.addi (IntOp.muli (BitVec.ofNat 32 k) 360#32) (BitVec.ofNat 32 p)).toInt.toNat = k * 360 + p := by
  have e : IntOp.addi (IntOp.muli (BitVec.ofNat 32 k) 360#32) (BitVec.ofNat 32 p) = BitVec.ofNat 32 (k * 360 + p) := by
    apply BitVec.eq_of_toNat_eq
    simp only [IntOp.addi, IntOp.muli, BitVec.toNat_add, BitVec.toNat_mul, BitVec.toNat_ofNat]
    omega
  rw [e, StableHlo.Predicate.toInt_ofNat_small _ (by omega)]
  exact Int.toNat_natCast _

/-! ## The printed shape operations read at an index -/

open Cert.Pre_finite_inputs in
/-- The row vector as a column, read at (b, 0): the vector at b. -/
theorem bcast_col (h : S16384.BroadcastsInDim S16384x1 (![0] : Fin 1 → Fin S16384x1.rank)) {α : Type} (v : S16384.Idx → α)
    (b : Fin 16384) (c : Fin 1) : broadcastInDim S16384x1 ![0] h v (ix2 b c) = v (ix1 b) := by
  show v _ = v _
  congr 1
  funext a
  match a with
  | ⟨0, _⟩ => exact Fin.ext rfl

open Cert.Pre_finite_inputs in
/-- The column along the rows of the rectangle, read at (b, p): the column at (b, 0). -/
theorem bcast_rect (h : S16384x1.BroadcastsInDim S16384x360 (![0, 1] : Fin 2 → Fin S16384x360.rank)) {α : Type}
    (v : S16384x1.Idx → α) (b : Fin 16384) (p : Fin 360) :
    broadcastInDim S16384x360 ![0, 1] h v (ix2 b p) = v (ix2 b (0 : Fin 1)) := by
  show v _ = v _
  congr 1
  funext a
  match a with
  | ⟨0, _⟩ => exact Fin.ext rfl
  | ⟨1, _⟩ => exact Fin.ext rfl

open Cert.Pre_finite_inputs in
/-- The rectangle with a trailing unit axis, read at (b, p, 0): the rectangle at (b, p). -/
theorem bcast_unit (h : S16384x360.BroadcastsInDim S16384x360x1 (![0, 1] : Fin 2 → Fin S16384x360x1.rank)) {α : Type}
    (v : S16384x360.Idx → α) (b : Fin 16384) (p : Fin 360) (c : Fin 1) :
    broadcastInDim S16384x360x1 ![0, 1] h v (ix3 b p c) = v (ix2 b p) := by
  show v _ = v _
  congr 1
  funext a
  match a with
  | ⟨0, _⟩ => exact Fin.ext rfl
  | ⟨1, _⟩ => exact Fin.ext rfl

open Cert.Pre_finite_inputs in
/-- The source index over row b with column p inserted on the reduced axis is (b, p). -/
theorem lift_row (h : Shape.Reduces S16384x360 [1] S16384) (b : Fin 16384) (p : Fin 360) :
    h.lift (ix1 b) p = ix2 b p := by
  funext a
  match a with
  | ⟨0, _⟩ => exact Fin.ext rfl
  | ⟨1, _⟩ => exact Fin.ext rfl

open Cert.Pre_finite_inputs in
/-- The start indices the program builds, read at (b, p, 0): the class word of row b times 360 plus the column p,
    in 32-bit words. -/
theorem start_read (bc0 : S16384.BroadcastsInDim S16384x1 (![0] : Fin 1 → Fin S16384x1.rank))
    (bc1 : S_.BroadcastsInDim S16384x1 (![] : Fin 0 → Fin S16384x1.rank))
    (bc4 : S16384x1.BroadcastsInDim S16384x360 (![0, 1] : Fin 2 → Fin S16384x360.rank))
    (bc6 : S16384x360.BroadcastsInDim S16384x360x1 (![0, 1] : Fin 2 → Fin S16384x360x1.rank))
    (x2 : IVec S16384 32) (b : Fin 16384) (p : Fin 360) :
    broadcastInDim S16384x360x1 ![0, 1] bc6
        (addi (broadcastInDim S16384x360 ![0, 1] bc4
          (muli (broadcastInDim S16384x1 ![0] bc0 x2) (broadcastInDim S16384x1 ![] bc1 (constantI S_ 32 360#32))))
          (iotaInDim S16384x360 32 1)) (ix3 b p (0 : Fin 1))
      = IntOp.addi (IntOp.muli (x2 (ix1 b)) 360#32) (BitVec.ofNat 32 p.val) := by
  rw [bcast_unit]
  show IntOp.addi (broadcastInDim S16384x360 ![0, 1] bc4
    (muli (broadcastInDim S16384x1 ![0] bc0 x2) (broadcastInDim S16384x1 ![] bc1 (constantI S_ 32 360#32))) (ix2 b p)) _ = _
  rw [bcast_rect]
  show IntOp.addi (IntOp.muli (broadcastInDim S16384x1 ![0] bc0 x2 (ix2 b (0 : Fin 1))) _) _ = _
  rw [bcast_col]
  rfl

open Cert.Pre_finite_inputs in
/-- The gather of the program read at (b, p), when the start index there is k b · 360 + p with k b below 12: the
    start index is inside the row, so the clamp leaves it, and the element is column p of row b's window. -/
theorem gather_read (x0 : FVec Ideal S16384x4320 .f32) (idx : IVec S16384x360x1 32) (k : Fin 16384 → Fin 12)
    (b : Fin 16384) (p : Fin 360)
    (hidx : idx (ix3 b p (0 : Fin 1)) = IntOp.addi (IntOp.muli (BitVec.ofNat 32 (k b).val) 360#32) (BitVec.ofNat 32 p.val)) :
    Host.gather gather_S16384x4320_S16384x360x1_S16384x360_n_1_0_0_1_2_11 x0 idx (ix2 b p) = win x0 k b p := by
  have e := Cert.GatherLast.gather_last_apply (B := 16384) (N := 4320) (P := 360) (by decide)
    Facts.gather_S16384x4320_S16384x360x1_S16384x360_n_1_0_0_1_2_11_wf x0 idx b p
  refine e.trans (congrArg x0 (congrArg (ix2 b) (Fin.ext ?_)))
  show min (idx (ix3 b p (0 : Fin 1))).toInt.toNat (4320 - 1) = (k b).val * 360 + p.val
  rw [hidx, start_toNat _ _ (k b).isLt p.isLt]
  have := (k b).isLt; have := p.isLt; omega

open Cert.Pre_finite_inputs in
/-- The last conjunct read at row b: the host's sum over the row of the absolute values, from the zero word, is above
    the zero word; so the sum over the 360 columns of max g (−g) is above 0. -/
theorem row_sum_pos (g : FVec Ideal S16384x360 .f32) (b : Fin 16384) (red : S16384x360.ReducesTo [1] S16384)
    (hS : 0 < S_.numel) (bc : S_.BroadcastsInDim S16384 (![] : Fin 0 → Fin S16384.rank))
    (h : cmpf .ogt (Host.reduceAdd (Host.absf g) (constant S_ .f32 0x00000000#32) red hS)
        (broadcastInDim S16384 ![] bc (constant S_ .f32 0x00000000#32)) (ix1 b) = 1#1) :
    0 < ∑ p : Fin 360, max (g (ix2 b p)) (-(g (ix2 b p))) := by
  have hR : Shape.Reduces S16384x360 [1] S16384 := by decide
  have h' := h
  simp only [cmpf, broadcastInDim, constant, Host.reduceAdd, Ideal.cmpf_def, Ideal.ofBits_def, Ideal.hostReduceAdd_def] at h'
  rw [Ideal.hostReduceAdd_single red hR] at h'
  simp only [constant, Host.absf, Ideal.ofBits_def, Ideal.hostAbsf_def, Ideal.absf_def, Ideal.ofBits_zero_f32, zero_add,
    Ideal.cmp, StableHlo.Predicate.ofBool_eq_one_iff, decide_eq_true_eq] at h'
  refine lt_of_lt_of_eq h' (Finset.sum_congr rfl fun p _ => ?_)
  exact congrArg (fun z => max (g z) (-(g z))) (lift_row hR b p)

/-- THE PRECONDITION DECODED: both arrays are real everywhere; the class words are the words of classes below 12; and
    in every row the L1 norm of the window its class selects is not zero. -/
theorem pre_facts (x0 x1 : FVec Ideal Cert.Pre_finite_inputs.S16384x4320 .f32) (x2 : IVec Cert.Pre_finite_inputs.S16384 32)
    (h : Cert.Pre_finite_inputs.fn (F := Ideal) x0 x1 x2 = fun _ => 1#1) :
    (∀ i, ∃ r : ℝ, x0 i = (r : EReal)) ∧ (∀ i, ∃ r : ℝ, x1 i = (r : EReal))
      ∧ ∃ k : Fin 16384 → Fin 12, (∀ b : Fin 16384, x2 (ix1 b) = BitVec.ofNat 32 (k b).val)
          ∧ ∀ b : Fin 16384, l1 (win x0 k b) ≠ 0 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  simp only [andi, IntOp.andi_eq_one] at h0
  obtain ⟨⟨⟨⟨h1, h2⟩, h3⟩, h4⟩, h5⟩ := h0
  have a1 := Host.reduce_andi_all _ _ _ _ _ h1
  have a2 := Host.reduce_andi_all _ _ _ _ _ h2
  have a3 := Host.reduce_andi_all _ _ _ _ _ h3
  have a4 := Host.reduce_andi_all _ _ _ _ _ h4
  have a5 := Host.reduce_andi_all _ _ _ _ _ h5
  -- the two arrays are real
  have f0 : ∀ i, ∃ r : ℝ, x0 i = (r : EReal) := fun i => by
    refine real_of_abs_lt_top (x0 i) ?_
    rw [← ofBits_inf_f32]; exact a1 i
  have f1 : ∀ i, ∃ r : ℝ, x1 i = (r : EReal) := fun i => by
    refine real_of_abs_lt_top (x1 i) ?_
    rw [← ofBits_inf_f32]; exact a2 i
  -- the class words
  have r : ∀ b : Fin 16384, (x2 (ix1 b)).toInt.toNat < 12 ∧ x2 (ix1 b) = BitVec.ofNat 32 (x2 (ix1 b)).toInt.toNat := fun b => by
    have s3 : IntOp.cmpi .sge (x2 (ix1 b)) 0#32 = 1#1 := a3 (ix1 b)
    have s4 : IntOp.cmpi .slt (x2 (ix1 b)) 12#32 = 1#1 := a4 (ix1 b)
    exact word_of_range _ (IntOp.cmpi_sge.mp s3) (IntOp.cmpi_slt.mp s4)
  obtain ⟨k, hk⟩ : ∃ k : Fin 16384 → Fin 12, ∀ b : Fin 16384, x2 (ix1 b) = BitVec.ofNat 32 (k b).val :=
    ⟨fun b => ⟨_, (r b).1⟩, fun b => (r b).2⟩
  refine ⟨f0, f1, k, hk, fun b => ?_⟩
  -- the windows' norms
  have pos := row_sum_pos _ b _ _ _ (a5 (ix1 b))
  have hl : l1 (win x0 k b) = ∑ p : Fin 360, max (win x0 k b p) (-(win x0 k b p)) := rfl
  rw [hl]
  refine ne_of_gt (lt_of_lt_of_eq pos (Finset.sum_congr rfl fun p _ => ?_))
  rw [gather_read x0 _ k b p (by rw [start_read, hk b])]

end Cert.PreFacts

end
-- ==== Proof.KerBody.lean ====
import proofs.«407616_j38285338477081_3_alg».proof.Proof.Gen.KernelIdeal.Frame
import proofs.«407616_j38285338477081_3_alg».proof.Proof.LossSpec
import Idealize.ShloMosaic.PureOps.Ideal.Laws
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen Cert.Loss

/-! ## Layout operations on a trailing unit axis, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` column broadcast to `[a, b]` reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1]` array broadcast to `[a, b]` reads its one element everywhere. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) :=
  broadcastTo_apply v h (ix2 i j) (ix2 (0 : Fin 1) (0 : Fin 1)) fun ax =>
    match ax with | ⟨0, _⟩ => rfl | ⟨1, _⟩ => rfl

end Layout

/-! ## The body's reductions, read at an index -/

/-- The word `0xFF800000` denotes `−∞`. -/
theorem ofBits_negInf_f32 : Ideal.ofBits .f32 0xFF800000#32 = ⊥ := by simp [Ideal.ofBits, Ideal.ieee]

/-- The sum of each row of a `[256, 360]` array, kept as a column. -/
def rowSum (x : FVec Ideal S256x360 .f32) : FVec Ideal S256x1 .f32 :=
  shapeCast S256x1 (multiReduction (F := Ideal) .add [1] S256 x 0x00000000#32 reduces_S256x360_S256 (.inl rfl) rfl)
    shapeCasts_S256_S256x1

/-- The maximum of each row of a `[256, 360]` array, kept as a column. -/
def rowMax (x : FVec Ideal S256x360 .f32) : FVec Ideal S256x1 .f32 :=
  shapeCast S256x1 (multiReduction (F := Ideal) .maximumf [1] S256 x 0xFF800000#32 reduces_S256x360_S256 (.inl rfl) rfl)
    shapeCasts_S256_S256x1

/-- A column spread over the 360 entries of each row. -/
def spread (y : FVec Ideal S256x1 .f32) : FVec Ideal S256x360 .f32 :=
  broadcastTo S256x360 y broadcasts_S256x1_S256x360

theorem rowSum_apply (x : FVec Ideal S256x360 .f32) (r : Fin 256) (u : Fin 1) :
    rowSum x (ix2 r u) = ∑ p : Fin 360, x (ix2 r p) := by
  unfold rowSum
  refine (shapeCast_a_a1_apply _ shapeCasts_S256_S256x1 r u).trans ?_
  refine (Ideal.multiReduction_add_single x 0x00000000#32 reduces_S256x360_S256 (.inl rfl) rfl (ix1 r)).trans ?_
  refine Finset.sum_congr rfl fun p _ => congrArg x ?_
  funext a
  match a with
  | ⟨0, _⟩ => rfl
  | ⟨1, _⟩ => rfl

theorem rowMax_apply (x : FVec Ideal S256x360 .f32) (r : Fin 256) (u : Fin 1) :
    rowMax x (ix2 r u) = (Finset.univ : Finset (Fin 360)).fold max ⊥ (fun p => x (ix2 r p)) := by
  unfold rowMax
  refine (shapeCast_a_a1_apply _ shapeCasts_S256_S256x1 r u).trans ?_
  refine (Ideal.multiReduction_maximumf_single x 0xFF800000#32 reduces_S256x360_S256 (.inl rfl) rfl (ix1 r)).trans ?_
  have hb : (FloatOps.ofBits (F := Ideal) .f32 0xFF800000#32 : EReal) = ⊥ := ofBits_negInf_f32
  rw [hb]
  refine Finset.fold_congr fun p _ => congrArg x ?_
  funext a
  match a with
  | ⟨0, _⟩ => rfl
  | ⟨1, _⟩ => rfl

theorem spread_apply (y : FVec Ideal S256x1 .f32) (r : Fin 256) (p : Fin 360) :
    spread y (ix2 r p) = y (ix2 r (0 : Fin 1)) :=
  broadcastTo_a1_ab_apply y broadcasts_S256x1_S256x360 r p

/-- The sum over the 12 classes of a `[256, 12, 360]` array. -/
theorem classSum_apply (x : FVec Ideal S256x12x360 .f32) (r : Fin 256) (p : Fin 360) :
    multiReduction (F := Ideal) .add [1] S256x360 x 0x00000000#32 reduces_S256x12x360_S256x360 (.inl rfl) rfl (ix2 r p)
      = ∑ c : Fin 12, x (ix3 r c p) := by
  refine (Ideal.multiReduction_add_single x 0x00000000#32 reduces_S256x12x360_S256x360 (.inl rfl) rfl (ix2 r p)).trans ?_
  refine Finset.sum_congr rfl fun c _ => congrArg x ?_
  funext a
  match a with
  | ⟨0, _⟩ => rfl
  | ⟨1, _⟩ => rfl
  | ⟨2, _⟩ => rfl

/-- The sum down a `[256, 1]` column, kept as a `[1, 1]` array. -/
theorem colSum_apply (x : FVec Ideal S256x1 .f32) :
    shapeCast S1x1 (multiReduction (F := Ideal) .add [0] S1 x 0x00000000#32 reduces_S256x1_S1 (.inl rfl) rfl)
        shapeCasts_S1_S1x1 (ix2 (0 : Fin 1) (0 : Fin 1))
      = ∑ r : Fin 256, x (ix2 r (0 : Fin 1)) := by
  refine (shapeCast_a_1a_apply _ shapeCasts_S1_S1x1 (0 : Fin 1) (0 : Fin 1)).trans ?_
  refine (Ideal.multiReduction_add_single x 0x00000000#32 reduces_S256x1_S1 (.inl rfl) rfl (ix1 (0 : Fin 1))).trans ?_
  refine Finset.sum_congr rfl fun r _ => congrArg x ?_
  funext a
  match a with
  | ⟨0, _⟩ => rfl
  | ⟨1, _⟩ => rfl

/-! ## Words -/

/-- A one-bit condition widened to 32 bits and read as a signed integer is `1` when it holds … -/
theorem word_true : ((BitVec.ofBool true).setWidth 32).toInt = 1 := by decide
/-- … and `0` when it does not. -/
theorem word_false : ((BitVec.ofBool false).setWidth 32).toInt = 0 := by decide

/-- Class indices below 12, compared as 32-bit words, widened and converted: `1` where they agree, `0` elsewhere. -/
theorem onehot_word (a b : Fin 12) :
    ((((IntOp.cmpi .eq (BitVec.ofNat 32 a.val) (BitVec.ofNat 32 b.val)).setWidth 32).toInt : ℝ) : EReal)
      = if b = a then 1 else 0 := by
  show ((((BitVec.ofBool (BitVec.ofNat 32 a.val == BitVec.ofNat 32 b.val)).setWidth 32).toInt : ℝ) : EReal) = _
  by_cases h : b = a
  · subst h
    rw [show (BitVec.ofNat 32 b.val == BitVec.ofNat 32 b.val) = true from beq_self_eq_true _, word_true, if_pos rfl]
    simp
  · have hne : BitVec.ofNat 32 a.val ≠ BitVec.ofNat 32 b.val := fun e => h (Fin.ext (by
      have := congrArg BitVec.toNat e
      simp only [BitVec.toNat_ofNat] at this
      have := a.isLt; have := b.isLt
      omega))
    rw [show (BitVec.ofNat 32 a.val == BitVec.ofNat 32 b.val) = false from beq_eq_false_iff_ne.mpr hne, word_false,
      if_neg h]
    simp

/-- A small natural as a 32-bit word is the zero word exactly when it is zero. -/
theorem cmpi_eq_zero_word (n : Nat) (hn : n < 4294967296) :
    IntOp.cmpi .eq (BitVec.ofNat 32 n) 0#32 = if n = 0 then 1#1 else 0#1 := by
  show BitVec.ofBool (BitVec.ofNat 32 n == 0#32) = _
  by_cases h : n = 0
  · subst h; rfl
  · have hne : BitVec.ofNat 32 n ≠ 0#32 := fun e => h (by
      have := congrArg BitVec.toNat e
      simp only [BitVec.toNat_ofNat] at this
      omega)
    rw [if_neg h, show (BitVec.ofNat 32 n == 0#32) = false from beq_eq_false_iff_ne.mpr hne]
    rfl

/-- The select on "row coordinate is 0 and column coordinate is 0" is the `if` on both. -/
theorem corner_word (u : Fin 8) (v : Fin 128) (A B : EReal) :
    Scalar.select (IntOp.andi (IntOp.cmpi .eq (BitVec.ofNat 32 u.val) 0#32) (IntOp.cmpi .eq (BitVec.ofNat 32 v.val) 0#32)) A B
      = if u.val = 0 ∧ v.val = 0 then A else B := by
  rw [cmpi_eq_zero_word u.val (by have := u.isLt; omega), cmpi_eq_zero_word v.val (by have := v.isLt; omega)]
  by_cases hu : u.val = 0
  · by_cases hv : v.val = 0
    · rw [if_pos hu, if_pos hv, if_pos ⟨hu, hv⟩]; rfl
    · rw [if_pos hu, if_neg hv, if_neg (fun h => hv h.2)]; rfl
  · by_cases hv : v.val = 0
    · rw [if_neg hu, if_pos hv, if_neg (fun h => hu h.1)]; rfl
    · rw [if_neg hu, if_neg hv, if_neg (fun h => hu h.1)]; rfl

/-! ## The class pick: the masked sum over the classes reads the row's own class -/

/-- The body's mask: `1` at a row's class, `0` at the other classes. -/
def mask (c0 : Vec Ideal S256x1 .i32) : FVec Ideal S256x12x1 .f32 :=
  shapeCast S256x12x1
    (sitofp .f32 (extui 32 (cmpi .eq
      (broadcastTo S256x12 (shapeCast S256x1 c0 shapeCasts_S256x1_S256x1 : IVec S256x1 32) broadcasts_S256x1_S256x12)
      (iota .tc S256x12 32 [1] iota_S256x12_d1_w32)) natLt_1_32) : FVec Ideal S256x12 .f32)
    shapeCasts_S256x12_S256x12x1

/-- The masked sum over the classes of a `[256, 12, 360]` array. -/
def pick (c0 : Vec Ideal S256x1 .i32) (X : Vec Ideal S256x12x360 .f32) : FVec Ideal S256x360 .f32 :=
  multiReduction (F := Ideal) .add [1] S256x360
    (mulf (broadcastTo S256x12x360 (mask c0) broadcasts_S256x12x1_S256x12x360)
      (shapeCast S256x12x360 X shapeCasts_S256x12x360_S256x12x360 : FVec Ideal S256x12x360 .f32))
    0x00000000#32 reduces_S256x12x360_S256x360 (.inl rfl) rfl

theorem mask_apply (c0 : Vec Ideal S256x1 .i32) (kk : Fin 256 → Fin 12)
    (hk : ∀ r : Fin 256, c0 (ix2 r (0 : Fin 1)) = BitVec.ofNat 32 (kk r).val) (r : Fin 256) (c : Fin 12) (u : Fin 1) :
    mask c0 (ix3 r c u) = if c = kk r then (1 : EReal) else 0 := by
  unfold mask
  refine (shapeCast_ab_ab1_apply _ shapeCasts_S256x12_S256x12x1 r c u).trans ?_
  have hb : broadcastTo S256x12 (shapeCast S256x1 c0 shapeCasts_S256x1_S256x1 : IVec S256x1 32) broadcasts_S256x1_S256x12 (ix2 r c)
      = BitVec.ofNat 32 (kk r).val := by
    rw [broadcastTo_a1_ab_apply, shapeCast_self]; exact hk r
  have hi : iota .tc S256x12 32 [1] iota_S256x12_d1_w32 (ix2 r c) = BitVec.ofNat 32 c.val :=
    iota_single_apply _ _ _ _ _ _
  show ((((IntOp.cmpi .eq
      (broadcastTo S256x12 (shapeCast S256x1 c0 shapeCasts_S256x1_S256x1 : IVec S256x1 32) broadcasts_S256x1_S256x12 (ix2 r c))
      (iota .tc S256x12 32 [1] iota_S256x12_d1_w32 (ix2 r c))).setWidth 32).toInt : ℝ) : EReal) = _
  rw [hb, hi]
  exact onehot_word (kk r) c

theorem pick_apply (c0 : Vec Ideal S256x1 .i32) (kk : Fin 256 → Fin 12)
    (hk : ∀ r : Fin 256, c0 (ix2 r (0 : Fin 1)) = BitVec.ofNat 32 (kk r).val) (X : Vec Ideal S256x12x360 .f32)
    (r : Fin 256) (p : Fin 360) : pick c0 X (ix2 r p) = X (ix3 r (kk r) p) := by
  unfold pick
  refine (classSum_apply _ r p).trans ?_
  have hterm : ∀ c : Fin 12,
      mulf (broadcastTo S256x12x360 (mask c0) broadcasts_S256x12x1_S256x12x360)
        (shapeCast S256x12x360 X shapeCasts_S256x12x360_S256x12x360 : FVec Ideal S256x12x360 .f32) (ix3 r c p)
        = (if c = kk r then (1 : EReal) else 0) * X (ix3 r c p) := fun c => by
    rw [mulf_apply, broadcastTo_ab1_abc_apply, mask_apply c0 kk hk, shapeCast_self]
  rw [Finset.sum_congr rfl fun c _ => hterm c, Finset.sum_eq_single (kk r)]
  · rw [if_pos rfl, one_mul]
  · intro c _ hc; rw [if_neg hc, zero_mul]
  · intro h; exact absurd (Finset.mem_univ _) h

/-! ## A row's value -/

theorem absf_apply {s : Shape} (x : FVec Ideal s .f32) (i : s.Idx) : absf x i = max (x i) (-(x i)) := rfl
theorem exp_apply {s : Shape} (x : FVec Ideal s .f32) (i : s.Idx) : exp x i = Ideal.exp (x i) := rfl
theorem log_apply {s : Shape} (x : FVec Ideal s .f32) (i : s.Idx) : log x i = Ideal.log (x i) := rfl

/-- Each row divided by the sum of its absolute values. -/
def scaledV (pw : FVec Ideal S256x360 .f32) : FVec Ideal S256x360 .f32 :=
  divf pw (spread (rowSum (absf pw)))

/-- Each scaled row minus its maximum. -/
def shiftedV (pw : FVec Ideal S256x360 .f32) : FVec Ideal S256x360 .f32 :=
  subf (scaledV pw) (spread (rowMax (scaledV pw)))

/-- Each row's contribution, as the body computes it from the picked windows. -/
def rows (pw lw : FVec Ideal S256x360 .f32) : FVec Ideal S256x1 .f32 :=
  subf (rowSum (mulf lw (shiftedV pw))) (mulf (log (rowSum (exp (shiftedV pw)))) (rowSum lw))

theorem scaledV_apply (pw : FVec Ideal S256x360 .f32) (r : Fin 256) (p : Fin 360) :
    scaledV pw (ix2 r p) = scaled (fun q => pw (ix2 r q)) p := by
  unfold scaledV
  rw [divf_apply, spread_apply, rowSum_apply]
  rfl

theorem shiftedV_apply (pw : FVec Ideal S256x360 .f32) (r : Fin 256) (p : Fin 360) :
    shiftedV pw (ix2 r p) = shifted (fun q => pw (ix2 r q)) p := by
  unfold shiftedV
  rw [subf_apply, spread_apply, rowMax_apply]
  simp only [scaledV_apply]
  rfl

theorem rows_apply (pw lw : FVec Ideal S256x360 .f32) (r : Fin 256) (u : Fin 1) :
    rows pw lw (ix2 r u) = rowKer (fun q => pw (ix2 r q)) (fun q => lw (ix2 r q)) := by
  unfold rows
  rw [subf_apply, mulf_apply, log_apply, rowSum_apply, rowSum_apply, rowSum_apply]
  simp only [mulf_apply, exp_apply, shiftedV_apply]
  rfl

/-! ## The two payloads -/

/-- The block's value: the body's operations are the class pick, the row values and the sum down the rows. -/
theorem pay2_staged (c0 : Vec Ideal S256x1 .i32) (P L : Vec Ideal S256x12x360 .f32) :
    k0_pay2 (F := Ideal) c0 P L
      = shapeCast S1x1 (multiReduction (F := Ideal) .add [0] S1 (rows (pick c0 P) (pick c0 L)) 0x00000000#32
          reduces_S256x1_S1 (.inl rfl) rfl) shapeCasts_S1_S1x1 := rfl

theorem pay2_apply (c0 : Vec Ideal S256x1 .i32) (P L : Vec Ideal S256x12x360 .f32) (kk : Fin 256 → Fin 12)
    (hk : ∀ r : Fin 256, c0 (ix2 r (0 : Fin 1)) = BitVec.ofNat 32 (kk r).val) :
    k0_pay2 (F := Ideal) c0 P L (ix2 (0 : Fin 1) (0 : Fin 1))
      = ∑ r : Fin 256, rowKer (fun p => P (ix3 r (kk r) p)) (fun p => L (ix3 r (kk r) p)) := by
  rw [pay2_staged]
  refine (colSum_apply _).trans ?_
  refine Finset.sum_congr rfl fun r _ => ?_
  rw [rows_apply]
  simp only [pick_apply c0 kk hk]

/-- The stored value: the negated block value at the corner, zero elsewhere. -/
theorem pay1_apply (y : FVec Ideal S1x1 .f32) (u : Fin 8) (v : Fin 128) :
    k0_pay1 (F := Ideal) y (iota .tc S8x128 32 [0] iota_S8x128_d0_w32) (iota .tc S8x128 32 [1] iota_S8x128_d1_w32) 0#32 (ix2 u v)
      = if u.val = 0 ∧ v.val = 0 then -(y (ix2 (0 : Fin 1) (0 : Fin 1))) else 0 := by
  have h0 : iota .tc S8x128 32 [0] iota_S8x128_d0_w32 (ix2 u v) = BitVec.ofNat 32 u.val :=
    iota_single_apply _ _ _ _ _ _
  have h1 : iota .tc S8x128 32 [1] iota_S8x128_d1_w32 (ix2 u v) = BitVec.ofNat 32 v.val :=
    iota_single_apply _ _ _ _ _ _
  have hb : broadcastTo S8x128 (shapeCast S1x1 (subf (broadcast S1x1 (Scalar.ofBits (F := Ideal) .f32 0x00000000#32)) y)
        shapeCasts_S1x1_S1x1) broadcasts_S1x1_S8x128 (ix2 u v) = -(y (ix2 (0 : Fin 1) (0 : Fin 1))) := by
    rw [broadcastTo_11_ab_apply, shapeCast_self]
    show Ideal.ofBits .f32 0x00000000#32 - y _ = _
    rw [Ideal.ofBits_zero_f32, sub_eq_add_neg, zero_add]
  show Scalar.select
      (IntOp.andi (IntOp.cmpi .eq (iota .tc S8x128 32 [0] iota_S8x128_d0_w32 (ix2 u v)) 0#32)
        (IntOp.cmpi .eq (iota .tc S8x128 32 [1] iota_S8x128_d1_w32 (ix2 u v)) 0#32))
      (broadcastTo S8x128 (shapeCast S1x1 (subf (broadcast S1x1 (Scalar.ofBits (F := Ideal) .f32 0x00000000#32)) y)
        shapeCasts_S1x1_S1x1) broadcasts_S1x1_S8x128 (ix2 u v))
      (Ideal.ofBits .f32 0x00000000#32) = _
  rw [h0, h1, hb, Ideal.ofBits_zero_f32]
  exact corner_word u v _ _

/-! ## The stored block, read at an index -/

theorem out_apply (c0 : Vec Ideal S256x1 .i32) (P L : Vec Ideal S256x12x360 .f32) (kk : Fin 256 → Fin 12)
    (hk : ∀ r : Fin 256, c0 (ix2 r (0 : Fin 1)) = BitVec.ofNat 32 (kk r).val) (u : Fin 8) (v : Fin 128) :
    out0_3 (F := Ideal) c0 P L (ix2 u v)
      = if u.val = 0 ∧ v.val = 0 then
          -(∑ r : Fin 256, rowKer (fun p => P (ix3 r (kk r) p)) (fun p => L (ix3 r (kk r) p)))
        else 0 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_3
  rw [View.canon_unit_zero hz2]
  simp only [View.ld_unit_zero (S := S256x1) hz2, View.ld_unit_zero (S := S256x12x360) hz3]
  rw [pay1_apply, pay2_apply c0 P L kk hk]

end Cert.KernelIdeal.Body

end
-- ==== Proof.KerHost.lean ====
import proofs.«407616_j38285338477081_3_alg».proof.Proof.Gen.KernelIdeal.Frame
import proofs.«407616_j38285338477081_3_alg».proof.Proof.LossSpec
import Idealize.ShloMosaic.Lib.Pipeline.Value
import Idealize.ShloMosaic.Lib.ValueLayout
import Idealize.ShloMosaic.Lib.StableHlo.Run

/-!
  What the region finds in its three input arrays, after the host operations that precede it.

  The class numbers are clamped elementwise to the range 0..11 (a signed maximum with 0, then a signed minimum
  with 11) and reshaped from `[16384]` to `[16384, 1]`; a class number that is already below 12 passes the clamp
  unchanged. The two float arrays are reshaped from `[16384, 4320]` to `[16384, 12, 360]`: in row-major order the
  element at `(b, j, p)` of the result sits at position `(b * 12 + j) * 360 + p = b * 4320 + (j * 360 + p)`, which
  is the element at row `b`, column `j * 360 + p` of the operand.
-/

noncomputable section

namespace Cert.KernelIdeal.HostSide

open Idealize.ShloMosaic Idealize.ShloMosaic.TcCoe Idealize.ShloMosaic.ValueIdx Idealize.SL.Sem Cert.KernelIdeal Cert.KernelIdeal.Gen Cert.Loss

/-- Clamping a class number below 12 to the range 0..11 (signed, on 32-bit words) leaves it unchanged: twelve
    closed cases. -/
theorem clamp_small (n : Fin 12) :
    IntOp.minsi 11#32 (IntOp.maxsi 0#32 (BitVec.ofNat 32 n.val)) = BitVec.ofNat 32 n.val := by
  revert n; decide

/-- A `[16384, 4320]` array reshaped to `[16384, 12, 360]` reads, at `(b, j, p)`, the operand at row `b`,
    column `j * 360 + p`: the two indices have the same row-major position. -/
theorem reshape_read {α : Type} (x : S16384x4320.Idx → α) (h : S16384x4320.ShapeCasts S16384x12x360)
    (b : Fin 16384) (j : Fin 12) (p : Fin 360) :
    shapeCast S16384x12x360 x h (ix3 b j p) = x (ix2 b (col j p)) :=
  shapeCast_apply x h _ _ (by
    rw [Shape.rowMajor_val_three, Shape.rowMajor_val_two]
    show b.val * 4320 + (j.val * 360 + p.val) = (b.val * 12 + j.val) * 360 + p.val
    omega)

/-- A `[16384]` array reshaped to `[16384, 1]` reads, at `(b, u)`, the operand at `b` (the unit coordinate `u`
    is 0). -/
theorem reshape_col_read {α : Type} (x : S16384.Idx → α) (h : S16384.ShapeCasts S16384x1)
    (b : Fin 16384) (u : Fin 1) :
    shapeCast S16384x1 x h (ix2 b u) = x (ix1 b) :=
  shapeCast_apply x h _ _ (by
    have hu : u.val = 0 := by omega
    rw [Shape.rowMajor_val_two, Shape.rowMajor_val_one]
    show b.val = b.val * 1 + u.val
    omega)

variable (m : (ℓ : Loc nD τ sig) → Buf (Elt Ideal) ℓ)

/-- The class array as the region finds it: the launched class numbers, clamped to 0..11 and reshaped to a column.
    Where every launched class number is below 12 the clamp changes nothing. -/
theorem V_cls (c : Dev nD) (k : Fin 16384 → Fin 12)
    (hk : ∀ b : Fin 16384, (m ((c : Thread nD τ).loc main_arg2) : IVec S16384 32) (ix1 b) = BitVec.ofNat 32 (k b).val)
    (b : Fin 16384) :
    (V (F := Ideal) m c main_v1 : IVec S16384x1 32) (ix2 b (0 : Fin 1)) = BitVec.ofNat 32 (k b).val := by
  have e : (V (F := Ideal) m c main_v1 : IVec S16384x1 32)
      = shapeCast S16384x1
          (minsi (broadcastInDim S16384 ![] bcast_S_S16384 (constantI S_ 32 11#32))
            (maxsi (broadcastInDim S16384 ![] bcast_S_S16384 (constantI S_ 32 0#32))
              (m ((c : Thread nD τ).loc main_arg2) : IVec S16384 32)))
          shapeCasts_S16384_S16384x1 := by
    dsimp only [Gen.V, Gen.V0]
    simp only [Gen.hostOps0, Gen.hostOps0_1, Gen.hostOps0_2, List.flatten_cons, List.flatten_nil, List.append_nil,
      List.cons_append, List.nil_append]
    after_results
    rfl
  rw [e, reshape_col_read]
  show IntOp.minsi _ (IntOp.maxsi _ _) = _
  rw [hk b]
  exact clamp_small (k b)

/-- The first float array as the region finds it: the launched `[16384, 4320]` array reshaped to
    `[16384, 12, 360]`. -/
theorem V_preds (c : Dev nD) (b : Fin 16384) (j : Fin 12) (p : Fin 360) :
    (V (F := Ideal) m c main_v2 : FVec Ideal S16384x12x360 .f32) (ix3 b j p)
      = (m ((c : Thread nD τ).loc main_arg0) : FVec Ideal S16384x4320 .f32) (ix2 b (col j p)) := by
  have e : (V (F := Ideal) m c main_v2 : FVec Ideal S16384x12x360 .f32)
      = shapeCast S16384x12x360 (m ((c : Thread nD τ).loc main_arg0) : FVec Ideal S16384x4320 .f32)
          shapeCasts_S16384x4320_S16384x12x360 := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact reshape_read _ _ b j p

/-- The second float array as the region finds it: likewise. -/
theorem V_labels (c : Dev nD) (b : Fin 16384) (j : Fin 12) (p : Fin 360) :
    (V (F := Ideal) m c main_v3 : FVec Ideal S16384x12x360 .f32) (ix3 b j p)
      = (m ((c : Thread nD τ).loc main_arg1) : FVec Ideal S16384x4320 .f32) (ix2 b (col j p)) := by
  have e : (V (F := Ideal) m c main_v3 : FVec Ideal S16384x12x360 .f32)
      = shapeCast S16384x12x360 (m ((c : Thread nD τ).loc main_arg1) : FVec Ideal S16384x4320 .f32)
          shapeCasts_S16384x4320_S16384x12x360 := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact reshape_read _ _ b j p

end Cert.KernelIdeal.HostSide

end
-- ==== Proof.KerArray.lean ====
/-
  The kernel's output array after the run, as one function of the argument arrays.

  The grid has 64 points. Point `t` reads rows `256 t … 256 t + 255` of the class column and of the two
  `[16384, 12, 360]` arrays (the arguments' rows cut into 12 windows of 360 columns) and writes the `[8, 128]` block of
  rows `8 t … 8 t + 7` of the `[512, 128]` output: the negated sum of its 256 rows' contributions at the block's entry
  `(0, 0)`, zero elsewhere. The 64 blocks tile the output, so the array ends holding, at `(i, j)`, the negated block sum
  of block `i / 8` where `i` is a multiple of 8 and `j = 0`, and zero elsewhere.
-/
import proofs.«407616_j38285338477081_3_alg».proof.Proof.Gen.KernelIdeal.Frame
import proofs.«407616_j38285338477081_3_alg».proof.Proof.LossSpec
import proofs.«407616_j38285338477081_3_alg».proof.Proof.KerBody
import proofs.«407616_j38285338477081_3_alg».proof.Proof.KerHost
import Idealize.ShloMosaic.Lib.Pipeline.Value

set_option maxRecDepth 16384

noncomputable section

open scoped BigOperators

namespace Cert.KernelIdeal.Arr

open Idealize.ShloMosaic Idealize.ShloMosaic.TcCoe Idealize.ShloMosaic.ValueIdx Idealize.SL.Sem
open Cert.KernelIdeal Cert.KernelIdeal.Gen Cert.Loss
open Idealize.ShloMosaic.Pipeline (Dat)

variable (m : (ℓ : Loc nD τ sig) → Buf (Elt Ideal) ℓ)

/-- Block `t`'s value: the negated sum of its 256 rows' contributions. -/
def blockVal (x0 x1 : FVec Ideal S16384x4320 .f32) (k : Fin 16384 → Fin 12) (t : Fin 64) : EReal :=
  -(∑ r : Fin 256, rowKer (win x0 k (row t r)) (win x1 k (row t r)))

/-- The output array: block `i / 8`'s value at the entries `(i, 0)` with `i` a multiple of 8, zero elsewhere. -/
def outArr (x0 x1 : FVec Ideal S16384x4320 .f32) (k : Fin 16384 → Fin 12) : FVec Ideal S512x128 .f32 := fun i =>
  if (i 0).val % 8 = 0 ∧ (i 1).val = 0 then blockVal x0 x1 k ⟨(i 0).val / 8, by have := idx2_lt0 i; omega⟩ else 0

/-- The printed index maps, decided over the grid: every window's block index is the grid point on the first axis and
    zero on the others. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- A grid point as a block number. -/
def blockOf (t : Fin cfg0.N) : Fin 64 := ⟨t.val, by have h := t.isLt; have e : cfg0.N = 64 := N_0; omega⟩

/-- WHAT POINT `t` WRITES BACK is block `t` of the output array. -/
theorem flushed_eq (c : Dev nD) (k : Fin 16384 → Fin 12)
    (hk : ∀ b : Fin 16384, (m ((c : Thread nD τ).loc main_arg2) : IVec S16384 32) (ix1 b) = BitVec.ofNat 32 (k b).val)
    (t : Fin cfg0.N) :
    (dats m 0 c).flushed 3 t = ((cfg0.win 3).blk t).view.read (Elt Ideal)
      (outArr (m ((c : Thread nD τ).loc main_arg0)) (m ((c : Thread nD τ).loc main_arg1)) k) := by
  show (cfg0.win 3).cut (grid0.coords t) ((dats m 0 c).after 3 t) = _
  rw [after0_3]
  obtain ⟨e00, e01, e10, e11, e12, e20, e21, e22, e30, e31⟩ := idx_facts t
  funext j
  obtain ⟨u, v, rfl⟩ : ∃ (u : Fin 8) (v : Fin 128), j = ix2 u v := ⟨j 0, j 1, eq_ix2 j⟩
  show out0_3 (iblk m c 0 t) (iblk m c 1 t) (iblk m c 2 t) (ix2 u v)
    = outArr (m ((c : Thread nD τ).loc main_arg0)) (m ((c : Thread nD τ).loc main_arg1)) k (((cfg0.win 3).blk t).view.emb (ix2 u v))
  have hcls : ∀ r : Fin 256, iblk m c 0 t (ix2 r (0 : Fin 1)) = BitVec.ofNat 32 (k (row (blockOf t) r)).val := by
    intro r
    show V m c main_v1 (((cfg0.win 0).blk t).view.emb (ix2 r (0 : Fin 1))) = _
    have he : ((cfg0.win 0).blk t).view.emb (ix2 r (0 : Fin 1)) = ix2 (row (blockOf t) r) (0 : Fin 1) := by
      funext a; apply Fin.ext
      match a with
      | ⟨0, _⟩ => show win0_0.index t (0 : Fin 2) * 256 + 1 * r.val = 256 * t.val + r.val; omega
      | ⟨1, _⟩ => show win0_0.index t (1 : Fin 2) * 1 + 1 * 0 = 0; omega
    rw [he]
    exact HostSide.V_cls m c k hk (row (blockOf t) r)
  have hP : ∀ (r : Fin 256) (j : Fin 12) (p : Fin 360), iblk m c 1 t (ix3 r j p)
      = (m ((c : Thread nD τ).loc main_arg0) : FVec Ideal S16384x4320 .f32) (ix2 (row (blockOf t) r) (col j p)) := by
    intro r j p
    show V m c main_v2 (((cfg0.win 1).blk t).view.emb (ix3 r j p)) = _
    have he : ((cfg0.win 1).blk t).view.emb (ix3 r j p) = ix3 (row (blockOf t) r) j p := by
      funext a; apply Fin.ext
      match a with
      | ⟨0, _⟩ => show win0_1.index t (0 : Fin 3) * 256 + 1 * r.val = 256 * t.val + r.val; omega
      | ⟨1, _⟩ => show win0_1.index t (1 : Fin 3) * 12 + 1 * j.val = j.val; omega
      | ⟨2, _⟩ => show win0_1.index t (2 : Fin 3) * 360 + 1 * p.val = p.val; omega
    rw [he]
    exact HostSide.V_preds m c (row (blockOf t) r) j p
  have hL : ∀ (r : Fin 256) (j : Fin 12) (p : Fin 360), iblk m c 2 t (ix3 r j p)
      = (m ((c : Thread nD τ).loc main_arg1) : FVec Ideal S16384x4320 .f32) (ix2 (row (blockOf t) r) (col j p)) := by
    intro r j p
    show V m c main_v3 (((cfg0.win 2).blk t).view.emb (ix3 r j p)) = _
    have he : ((cfg0.win 2).blk t).view.emb (ix3 r j p) = ix3 (row (blockOf t) r) j p := by
      funext a; apply Fin.ext
      match a with
      | ⟨0, _⟩ => show win0_2.index t (0 : Fin 3) * 256 + 1 * r.val = 256 * t.val + r.val; omega
      | ⟨1, _⟩ => show win0_2.index t (1 : Fin 3) * 12 + 1 * j.val = j.val; omega
      | ⟨2, _⟩ => show win0_2.index t (2 : Fin 3) * 360 + 1 * p.val = p.val; omega
    rw [he]
    exact HostSide.V_labels m c (row (blockOf t) r) j p
  refine (Body.out_apply (iblk m c 0 t) (iblk m c 1 t) (iblk m c 2 t) (fun r => k (row (blockOf t) r)) hcls u v).trans ?_
  have he3 : ((cfg0.win 3).blk t).view.emb (ix2 u v)
      = (ix2 (⟨8 * t.val + u.val, by have h := t.isLt; have e : cfg0.N = 64 := N_0; omega⟩ : Fin 512) v : S512x128.Idx) := by
    funext a; apply Fin.ext
    match a with
    | ⟨0, _⟩ => show win0_3.index t (0 : Fin 2) * 8 + 1 * u.val = 8 * t.val + u.val; omega
    | ⟨1, _⟩ => show win0_3.index t (1 : Fin 2) * 128 + 1 * v.val = v.val; omega
  rw [he3]
  unfold outArr
  by_cases h : u.val = 0 ∧ v.val = 0
  · have h' : (8 * t.val + u.val) % 8 = 0 ∧ v.val = 0 := ⟨by omega, h.2⟩
    rw [if_pos h]
    refine Eq.trans ?_ (if_pos h').symm
    unfold blockVal
    have hb : (⟨(8 * t.val + u.val) / 8, by have h := t.isLt; have e : cfg0.N = 64 := N_0; omega⟩ : Fin 64) = blockOf t :=
      Fin.ext (by show (8 * t.val + u.val) / 8 = t.val; omega)
    refine congrArg Neg.neg (Finset.sum_congr rfl fun r _ => ?_)
    have e1 : (fun p => iblk m c 1 t (ix3 r (k (row (blockOf t) r)) p))
        = win (m ((c : Thread nD τ).loc main_arg0)) k (row (blockOf t) r) := funext fun p => hP r _ p
    have e2 : (fun p => iblk m c 2 t (ix3 r (k (row (blockOf t) r)) p))
        = win (m ((c : Thread nD τ).loc main_arg1)) k (row (blockOf t) r) := funext fun p => hL r _ p
    rw [e1, e2, hb]
  · have h' : ¬((8 * t.val + u.val) % 8 = 0 ∧ v.val = 0) := fun hh => h ⟨by have := u.isLt; omega, hh.2⟩
    rw [if_neg h]
    exact (if_neg h').symm

/-- An index of the output array is in point `t`'s block iff each coordinate is in the block's range on its axis. -/
theorem mem_blk (t : Fin cfg0.N) (i : S512x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v4).slice (win0_3.rect t)).set ↔ _
  rw [View.set_slice_whole, Rect.mem_set_unit]
  exact Iff.rfl

/-- The 64 blocks tile the output: row `i` lies in block `i / 8`. -/
theorem cover (i : S512x128.Idx) : ∃ t : Fin cfg0.N, (cfg0.win 3).flush t = true ∧ i ∈ ((cfg0.win 3).blk t).view.set := by
  have hi0 : (i 0).val < 512 := (i 0).isLt
  have hi1 : (i 1).val < 128 := (i 1).isLt
  let t : Fin cfg0.N := ⟨(i 0).val / 8, by have e : cfg0.N = 64 := N_0; omega⟩
  obtain ⟨_, _, _, _, _, _, _, _, e30, e31⟩ := idx_facts t
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; have : t.val = (i 0).val / 8 := rfl; omega
  | ⟨1, _⟩ => show win0_3.index t (1 : Fin 2) * 128 ≤ (i 1).val ∧ (i 1).val < win0_3.index t (1 : Fin 2) * 128 + 128; omega

/-- THE OUTPUT ARRAY after the run. -/
theorem final (c : Dev nD) (k : Fin 16384 → Fin 12)
    (hk : ∀ b : Fin 16384, (m ((c : Thread nD τ).loc main_arg2) : IVec S16384 32) (ix1 b) = BitVec.ofNat 32 (k b).val) :
    (dats m 0 c).arrAt 3 cfg0.N = outArr (m ((c : Thread nD τ).loc main_arg0)) (m ((c : Thread nD τ).loc main_arg1)) k :=
  (dats m 0 c).arrAt_eq_of_cover 3 _ (fun t _ => flushed_eq m c k hk t) cover

end Cert.KernelIdeal.Arr

end
-- ==== Proof.KerTail.lean ====
import proofs.«407616_j38285338477081_3_alg».proof.Proof.Gen.KernelIdeal.Frame
import Idealize.ShloMosaic.PureOps.Ideal.Laws
import Idealize.ShloMosaic.Lib.Pipeline.Value
import Idealize.ShloMosaic.Lib.ValueLayout
import Idealize.ShloMosaic.Lib.StableHlo.Run

noncomputable section

open scoped BigOperators

namespace Cert.KernelIdeal.Tail

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The tail's operations applied to any array `A`: the sum of `A` from zero, reshaped from `[]` to `[1]`, read at the
    one index, is the total sum of `A`. -/
private theorem tail_ops (A : FVec Ideal S512x128 .f32) (i : S1.Idx) :
    shapeCast S1 (Host.reduceAdd A (constant (F := Ideal) S_ .f32 0x00000000#32) reducesTo_S512x128_S_d0_1 h_S_) shapeCasts_S_S1 i
      = ∑ y : S512x128.Idx, A y := by
  rw [shapeCast_apply _ shapeCasts_S_S1 i (Shape.Idx.first h_S_) (by
    have h1 : (S_.rowMajor (Shape.Idx.first h_S_)).val < 1 := (S_.rowMajor (Shape.Idx.first h_S_)).isLt
    have h2 : (S1.rowMajor i).val < 1 := (S1.rowMajor i).isLt
    omega)]
  simp only [Host.reduceAdd, Ideal.hostReduceAdd_def]
  rw [Ideal.hostReduceAdd_total reducesTo_S512x128_S_d0_1 (fun b => b.elim0) A _ _, constant_apply,
    Ideal.ofBits_zero_f32, zero_add]

theorem tail_value (c : Dev nD) :
    (Pipeline.afterTail₀ cfgs (dats (F := Ideal) m) 0 (V0 m) [hostOps1] c main_v6 : FVec Ideal S1 .f32)
      = fun _ => Finset.sum (M := EReal) Finset.univ fun y : S512x128.Idx => (dats (F := Ideal) m 0 c).arrAt 3 cfg0.N y := by
  unfold Pipeline.afterTail₀
  show StableHlo.after hostOps1 _ (Proc.devRef .tc main_v6) = _
  after_results
  rw [Pipeline.withArrays_arr spec0 launch0.win.arr_inj c _ _ 3]
  funext i
  exact tail_ops ((dats (F := Ideal) m 0 c).arrAt 3 cfg0.N) i

end Cert.KernelIdeal.Tail

end
-- ==== Proof.LossRow.lean ====
/-
  A row's loss, term by term and with the log-sum-exp factored out, on real windows.

  For a window of reals whose L1 norm is not zero, every quantity in the row's loss is a real number:
  the norm is a positive real, the scaled entries are real quotients, their maximum is one of them, the
  sum of the exponentials of the shifted entries is a positive real, and its logarithm is real. So each
  entry's contribution is a real, and the two arrangements of the row's sum agree by the distributive
  law in the reals: `Σ c·(s − L) = Σ c·s − L·Σ c`.
-/
import proofs.«407616_j38285338477081_3_alg».proof.Proof.LossSpec

noncomputable section

open scoped BigOperators

namespace Cert.Loss

open Idealize.ShloMosaic

/-- The embedding of the reals commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The embedding of the reals commutes with `max`. -/
theorem coe_max' (x y : ℝ) : ((max x y : ℝ) : EReal) = max (x : EReal) (y : EReal) :=
  EReal.coe_strictMono.monotone.map_max

/-- On a real window with nonzero L1 norm, every shifted entry and the log-sum-exp are real:
the norm is a nonzero real, so each scaled entry is a real quotient; the maximum of finitely many
(and at least one) reals is one of them; the sum of the exponentials is a positive real, whose
logarithm is real. -/
theorem real_witness (pw : Fin 360 → EReal) (hpw : ∀ p, ∃ r : ℝ, pw p = (r : EReal)) (hne : l1 pw ≠ 0) :
    ∃ (s : Fin 360 → ℝ) (L : ℝ), (∀ p, shifted pw p = (s p : EReal)) ∧ lse pw = (L : EReal) := by
  choose a ha using hpw
  have hl1 : l1 pw = ((∑ p, max (a p) (-(a p)) : ℝ) : EReal) := by
    unfold l1
    rw [coe_sum]
    refine Finset.sum_congr rfl (fun p _ => ?_)
    rw [ha p, coe_max', EReal.coe_neg]
  have hS0 : (∑ p, max (a p) (-(a p)) : ℝ) ≠ 0 := by
    intro h
    apply hne
    rw [hl1, h, EReal.coe_zero]
  have hsc : ∀ p, scaled pw p = ((a p * (1 / ∑ q, max (a q) (-(a q))) : ℝ) : EReal) := by
    intro p
    unfold scaled
    rw [hl1, Ideal.div_coe hS0, ha p, ← EReal.coe_mul]
  obtain ⟨i, -, hi⟩ := Finset.exists_mem_eq_sup (Finset.univ : Finset (Fin 360))
    ⟨(0 : Fin 360), Finset.mem_univ _⟩ (scaled pw)
  have htop : top pw = ((a i * (1 / ∑ q, max (a q) (-(a q))) : ℝ) : EReal) := by
    rw [← hsc i, ← hi]
    rfl
  have hsh : ∀ p, shifted pw p =
      ((a p * (1 / ∑ q, max (a q) (-(a q))) - a i * (1 / ∑ q, max (a q) (-(a q))) : ℝ) : EReal) := by
    intro p
    unfold shifted
    rw [hsc, htop, ← EReal.coe_sub]
  have hE : (∑ p, Ideal.exp (shifted pw p)) =
      ((∑ p, Real.exp (a p * (1 / ∑ q, max (a q) (-(a q))) - a i * (1 / ∑ q, max (a q) (-(a q)))) : ℝ) : EReal) := by
    rw [coe_sum]
    refine Finset.sum_congr rfl (fun p _ => ?_)
    rw [hsh, Ideal.exp_coe]
  have hEpos : 0 < ∑ p : Fin 360,
      Real.exp (a p * (1 / ∑ q, max (a q) (-(a q))) - a i * (1 / ∑ q, max (a q) (-(a q)))) :=
    Finset.sum_pos (fun p _ => Real.exp_pos _) ⟨(0 : Fin 360), Finset.mem_univ _⟩
  refine ⟨fun p => a p * (1 / ∑ q, max (a q) (-(a q))) - a i * (1 / ∑ q, max (a q) (-(a q))),
    Real.log (∑ p, Real.exp (a p * (1 / ∑ q, max (a q) (-(a q))) - a i * (1 / ∑ q, max (a q) (-(a q))))),
    hsh, ?_⟩
  unfold lse
  rw [hE, Ideal.log_coe, if_neg (not_le.mpr hEpos)]

theorem term_real (pw lw : Fin 360 → EReal) (hpw : ∀ p, ∃ r : ℝ, pw p = (r : EReal)) (hlw : ∀ p, ∃ r : ℝ, lw p = (r : EReal))
    (hne : l1 pw ≠ 0) (p : Fin 360) : ∃ r : ℝ, term pw lw p = (r : EReal) := by
  obtain ⟨s, L, hs, hL⟩ := real_witness pw hpw hne
  obtain ⟨c, hc⟩ := hlw p
  refine ⟨c * (s p - L), ?_⟩
  unfold term
  rw [hc, hs, hL, ← EReal.coe_sub, ← EReal.coe_mul]

theorem rowKer_eq_sum_term (pw lw : Fin 360 → EReal) (hpw : ∀ p, ∃ r : ℝ, pw p = (r : EReal))
    (hlw : ∀ p, ∃ r : ℝ, lw p = (r : EReal)) (hne : l1 pw ≠ 0) : rowKer pw lw = ∑ p, term pw lw p := by
  obtain ⟨s, L, hs, hL⟩ := real_witness pw hpw hne
  choose c hc using hlw
  have h1 : (∑ p, lw p * shifted pw p) = ((∑ p, c p * s p : ℝ) : EReal) := by
    rw [coe_sum]
    refine Finset.sum_congr rfl (fun p _ => ?_)
    rw [hc, hs, EReal.coe_mul]
  have h2 : (∑ p, lw p) = ((∑ p, c p : ℝ) : EReal) := by
    rw [coe_sum]
    exact Finset.sum_congr rfl (fun p _ => hc p)
  have h3 : (∑ p, term pw lw p) = ((∑ p, c p * (s p - L) : ℝ) : EReal) := by
    rw [coe_sum]
    refine Finset.sum_congr rfl (fun p _ => ?_)
    unfold term
    rw [hc, hs, hL, ← EReal.coe_sub, ← EReal.coe_mul]
  unfold rowKer
  rw [h1, h2, h3, hL, ← EReal.coe_mul, ← EReal.coe_sub]
  congr 1
  rw [Finset.mul_sum, ← Finset.sum_sub_distrib]
  refine Finset.sum_congr rfl (fun p _ => ?_)
  ring

end Cert.Loss

end
-- ==== Proof.LossTotal.lean ====
/-
  The total loss. The block-by-block arrangement (64 blocks of 256 rows, each block's negated sum of factored row
  contributions) equals the entry-by-entry arrangement (the negated sum over all 16384 rows of the term-by-term
  row sums): every row's factored contribution is its term-by-term sum, every term is a real number, and for reals
  the negation of a sum is the sum of the negations while `(t, r) ↦ 256·t + r` enumerates the rows exactly once.
  Also: a [512, 128] array carrying `f (i / 8)` at the entries `(i, 0)` with `8 ∣ i` and zero elsewhere sums to `Σ_t f t`.
-/
import proofs.«407616_j38285338477081_3_alg».proof.Proof.LossRow

noncomputable section

open scoped BigOperators

namespace Cert.Loss

open Idealize.ShloMosaic Idealize.ShloMosaic.ValueIdx

/-- A function on `Fin 512` that vanishes off the multiples of 8 sums to the sum of its values at `8·t`:
    write `a = u + 8·t` with `u < 8`; only `u = 0` contributes. -/
private theorem sum_mult8_tot (g : Fin 512 → EReal) (hg : ∀ a : Fin 512, a.val % 8 ≠ 0 → g a = 0) :
    ∑ a, g a = ∑ t : Fin 64, g ⟨8 * t.val, by have := t.isLt; omega⟩ := by
  rw [← Equiv.sum_comp (finProdFinEquiv (m := 64) (n := 8)) g, Fintype.sum_prod_type]
  refine Finset.sum_congr rfl fun t _ => ?_
  rw [Fintype.sum_eq_single (0 : Fin 8)]
  · congr 1
    apply Fin.ext
    simp [finProdFinEquiv]
  · intro u hu
    apply hg
    have hu' : u.val ≠ 0 := fun h => hu (Fin.ext h)
    have hlt := u.isLt
    show (u.val + 8 * t.val) % 8 ≠ 0
    omega

theorem sum_tiles (f : Fin 64 → EReal) :
    (∑ y : (⟨2, ![512, 128]⟩ : Shape).Idx,
        (if (y 0).val % 8 = 0 ∧ (y 1).val = 0 then f ⟨(y 0).val / 8, by have := idx2_lt0 y; omega⟩ else 0))
      = ∑ t : Fin 64, f t := by
  rw [sum_idx2]
  trans ∑ a : Fin 512, (if h : a.val % 8 = 0 then f ⟨a.val / 8, by have := a.isLt; omega⟩ else 0)
  · refine Finset.sum_congr rfl fun a _ => ?_
    rw [Fintype.sum_eq_single (0 : Fin 128)]
    · by_cases h : a.val % 8 = 0
      · rw [dif_pos h, if_pos ⟨h, rfl⟩]
      · rw [dif_neg h, if_neg (fun hh => h hh.1)]
    · intro b hb
      have hb' : b.val ≠ 0 := fun h => hb (Fin.ext h)
      rw [if_neg (fun hh => hb' hh.2)]
  · rw [sum_mult8_tot]
    · refine Finset.sum_congr rfl fun t _ => ?_
      have h0 : (8 * t.val) % 8 = 0 := by omega
      rw [dif_pos h0]
      congr 1
      apply Fin.ext
      show 8 * t.val / 8 = t.val
      omega
    · intro a ha
      rw [dif_neg ha]

/-- The coercion of a finite sum of reals is the sum of the coercions. -/
private theorem coe_sum_tot {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(t, r) ↦ 256·t + r` is a bijection from 64 blocks of 256 rows onto the 16384 rows. -/
private theorem row_bijective_tot : Function.Bijective (fun x : Fin 64 × Fin 256 => row x.1 x.2) := by
  constructor
  · rintro ⟨t, r⟩ ⟨t', r'⟩ h
    have h' : 256 * t.val + r.val = 256 * t'.val + r'.val := congrArg Fin.val h
    have := r.isLt; have := r'.isLt
    have ht : t = t' := Fin.ext (by omega)
    have hr : r = r' := Fin.ext (by omega)
    rw [ht, hr]
  · intro b
    refine ⟨(⟨b.val / 256, by have := b.isLt; omega⟩, ⟨b.val % 256, by omega⟩), ?_⟩
    apply Fin.ext
    show 256 * (b.val / 256) + b.val % 256 = b.val
    omega

/-- A sum over the rows taken block by block is the sum over all rows. -/
private theorem sum_rows_tot (S : Fin 16384 → ℝ) : ∑ t : Fin 64, ∑ r : Fin 256, S (row t r) = ∑ b, S b := by
  rw [← Fintype.sum_prod_type']
  exact Fintype.sum_bijective _ row_bijective_tot _ _ (fun _ => rfl)

theorem kerTotal_eq_refTotal (PW LW : Fin 16384 → Fin 360 → EReal) (hP : ∀ b p, ∃ r : ℝ, PW b p = (r : EReal))
    (hL : ∀ b p, ∃ r : ℝ, LW b p = (r : EReal)) (hne : ∀ b, l1 (PW b) ≠ 0) : kerTotal PW LW = refTotal PW LW := by
  have hterm : ∀ b p, ∃ r : ℝ, term (PW b) (LW b) p = (r : EReal) :=
    fun b p => term_real (PW b) (LW b) (hP b) (hL b) (hne b) p
  choose R hR using hterm
  have hrow : ∀ b, rowKer (PW b) (LW b) = ((∑ p, R b p : ℝ) : EReal) := by
    intro b
    rw [rowKer_eq_sum_term (PW b) (LW b) (hP b) (hL b) (hne b), coe_sum_tot]
    exact Finset.sum_congr rfl fun p _ => hR b p
  have hker : kerTotal PW LW = ((∑ t : Fin 64, -(∑ r : Fin 256, ∑ p, R (row t r) p) : ℝ) : EReal) := by
    unfold kerTotal
    rw [coe_sum_tot]
    refine Finset.sum_congr rfl fun t _ => ?_
    rw [EReal.coe_neg, coe_sum_tot]
    refine congrArg Neg.neg ?_
    exact Finset.sum_congr rfl fun r _ => hrow (row t r)
  have href : refTotal PW LW = ((-(∑ b : Fin 16384, ∑ p, R b p) : ℝ) : EReal) := by
    unfold refTotal
    rw [EReal.coe_neg, coe_sum_tot]
    refine congrArg Neg.neg ?_
    refine Finset.sum_congr rfl fun b _ => ?_
    rw [coe_sum_tot]
    exact Finset.sum_congr rfl fun p _ => hR b p
  rw [hker, href, Finset.sum_neg_distrib, sum_rows_tot (fun b => ∑ p, R b p)]

end Cert.Loss

end
-- ==== Proof.KerRun.lean ====
/-
  The kernel program's run, read: its one result is the block-by-block loss of the argument arrays.

  After the region the host sums the `[512, 128]` output array into a scalar and reshapes it to `[1]`. The array holds
  block `t`'s negated sum at entry `(8 t, 0)` and zero elsewhere, so the sum over all its entries is the sum over the 64
  blocks.
-/
import proofs.«407616_j38285338477081_3_alg».proof.Proof.KerArray
import proofs.«407616_j38285338477081_3_alg».proof.Proof.KerTail
import proofs.«407616_j38285338477081_3_alg».proof.Proof.LossTotal

noncomputable section

open scoped BigOperators

namespace Cert.KernelIdeal.Run

open Idealize.ShloMosaic Idealize.ShloMosaic.TcCoe Idealize.ShloMosaic.ValueIdx Idealize.SL.Sem
open Cert.KernelIdeal Cert.KernelIdeal.Gen Cert.Loss

variable (m : (ℓ : Loc nD τ sig) → Buf (Elt Ideal) ℓ) (ρ : Dev nD → PrngReg)

/-- The sum of the output array's entries is the block-by-block total. -/
theorem sum_outArr (x0 x1 : FVec Ideal S16384x4320 .f32) (k : Fin 16384 → Fin 12) :
    ∑ y : S512x128.Idx, Arr.outArr x0 x1 k y = kerTotal (win x0 k) (win x1 k) :=
  sum_tiles (Arr.blockVal x0 x1 k)

/-- The result buffer after the host operations that follow the region. -/
theorem result (c : Dev nD) (k : Fin 16384 → Fin 12)
    (hk : ∀ b : Fin 16384, (m ((c : Thread nD τ).loc main_arg2) : IVec S16384 32) (ix1 b) = BitVec.ofNat 32 (k b).val) :
    (Pipeline.afterTail₀ cfgs (dats (F := Ideal) m) 0 (V0 m) [hostOps1] c main_v6 : FVec Ideal S1 .f32)
      = fun _ => kerTotal (win (m ((c : Thread nD τ).loc main_arg0)) k) (win (m ((c : Thread nD τ).loc main_arg1)) k) := by
  refine (Tail.tail_value m c).trans ?_
  funext _
  rw [Arr.final m c k hk]
  exact sum_outArr _ _ k

/-- Every weakly fair execution of the kernel program terminates with its result at the block-by-block total of the
    argument arrays' windows, the arguments unchanged. -/
theorem run (k : Dev nD → Fin 16384 → Fin 12)
    (hk : ∀ (c : Dev nD) (b : Fin 16384), (m ((c : Thread nD τ).loc main_arg2) : IVec S16384 32) (ix1 b) = BitVec.ofNat 32 (k c b).val) :
    θ_run defs (onTc (τ := τ) (main (F := Ideal))) ⟨m, fun _ => 0, ρ⟩ (fun r => ∀ c : Dev nD,
      r.2.mem ((c.tc : Thread nD τ).loc main_v6)
        = (fun _ => kerTotal (win (m ((c.tc : Thread nD τ).loc main_arg0)) (k c)) (win (m ((c.tc : Thread nD τ).loc main_arg1)) (k c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (result m c (k c) (hk c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.lean ====
/-
  The loss of a batch of 16384 rows: each row's class selects one of 12 windows of 360 columns of the predictions and
  of the labels; the predictions' window is divided by its L1 norm, its log-softmax is taken, and the row contributes
  the sum over the window of label times log-softmax; the loss is the negated sum over all rows.

  The reference gathers each row's window by index (the class times 360 plus the column), and sums label times
  log-softmax entry by entry over the whole batch. The kernel runs over 64 blocks of 256 rows: it selects the window
  by a one-hot mask over the 12 windows, factors the log-sum-exp out of each row's sum
  (Σ lw · (shifted − lse) = Σ lw · shifted − lse · Σ lw), writes each block's negated sum into one entry of a block of
  an otherwise zero output array, and the host sums that array.

  The two agree where the classes lie in their range 0 … 11 (outside it the reference's window index leaves the
  array), the inputs are finite, and no row's window has L1 norm zero (the reference's quotient is 0 / 0 there):
  the precondition says all three. Under it every quantity is a real number, the one-hot masked sum is the gathered
  window, the factoring is distributivity in ℝ, and the sum over 64 × 256 rows is the sum over 16384 rows.

  The three frames: the kernel's two are the generated frame proofs; the reference's is its run with the result dropped.
-/
import proofs.«407616_j38285338477081_3_alg».proof.Defs
import proofs.«407616_j38285338477081_3_alg».proof.Proof.Gen.Kernel
import proofs.«407616_j38285338477081_3_alg».proof.Proof.Gen.Kernel.Skeleton
import proofs.«407616_j38285338477081_3_alg».proof.Proof.Gen.Kernel.Launch
import proofs.«407616_j38285338477081_3_alg».proof.Proof.Gen.Kernel.Points
import proofs.«407616_j38285338477081_3_alg».proof.Proof.Gen.Kernel.Frame
import proofs.«407616_j38285338477081_3_alg».proof.Proof.Gen.KernelIdeal
import proofs.«407616_j38285338477081_3_alg».proof.Proof.Gen.KernelIdeal.Skeleton
import proofs.«407616_j38285338477081_3_alg».proof.Proof.Gen.KernelIdeal.Launch
import proofs.«407616_j38285338477081_3_alg».proof.Proof.Gen.KernelIdeal.Points
import proofs.«407616_j38285338477081_3_alg».proof.Proof.Gen.KernelIdeal.Frame
import proofs.«407616_j38285338477081_3_alg».proof.Proof.Gen.ReferenceIdeal
import proofs.«407616_j38285338477081_3_alg».proof.Proof.Gen.Pre_finite_inputs
import proofs.«407616_j38285338477081_3_alg».proof.Proof.RefRun
import proofs.«407616_j38285338477081_3_alg».proof.Proof.RefRead
import proofs.«407616_j38285338477081_3_alg».proof.Proof.RefRunHand
import proofs.«407616_j38285338477081_3_alg».proof.Proof.RefValue
import proofs.«407616_j38285338477081_3_alg».proof.Proof.PreFacts
import proofs.«407616_j38285338477081_3_alg».proof.Proof.KerRun
import proofs.«407616_j38285338477081_3_alg».proof.Proof.LossTotal
import Idealize.ShloMosaic.Adequacy
import Idealize.ShloMosaic.Init

noncomputable section

namespace Cert.Proof

open Idealize.ShloMosaic Idealize.SL.Sem Cert.Loss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunHand.run (F := Ideal) m ρ)

/-- Under the precondition the kernel's block-by-block total and the reference's entry-by-entry total of the same
    windows are one real number. -/
theorem algebraic : Cert.algebraic_KernelIdeal_ReferenceIdeal := by
  intro m ρ m' ρ' hpre hagree
  have hf := fun c => Cert.PreFacts.pre_facts _ _ _ (hpre c)
  have h0 := fun c => (hf c).1
  have h1 := fun c => (hf c).2.1
  choose k hk hne using fun c => (hf c).2.2
  refine ⟨fun c => fun _ => kerTotal (win (m ((c.tc : Thread Cert.KernelIdeal.nD Cert.KernelIdeal.τ).loc Cert.KernelIdeal.main_arg0)) (k c))
      (win (m ((c.tc : Thread Cert.KernelIdeal.nD Cert.KernelIdeal.τ).loc Cert.KernelIdeal.main_arg1)) (k c)),
    Cert.KernelIdeal.Run.run m ρ k hk, ?_⟩
  refine (θ_run Cert.ReferenceIdeal.defs _ _).mono (fun _ h c => ⟨(h c).1.trans ?_, (h c).2⟩)
    (Cert.ReferenceIdeal.RunHand.run (F := Ideal) m' ρ')
  rw [Cert.ReferenceIdeal.ReadP.val_main_v19_eq, (hagree c).1, (hagree c).2.1, (hagree c).2.2,
    Cert.ReferenceIdeal.RefValue.ref_value _ _ _ (k c) (hk c)]
  funext _
  exact (kerTotal_eq_refTotal _ _ (fun b p => h0 c _) (fun b p => h1 c _) (hne c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
